-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x33554432 : Shape := ⟨3, ![1, 1, 33554432]⟩
abbrev S_ : Shape := ⟨0, ![]⟩

class Facts : Prop where
  bcast_S_S1x1x33554432 : S_.BroadcastsInDim S1x1x33554432 (![] : Fin 0 → Fin S1x1x33554432.rank)
  reducesTo_S1x1x33554432_S_d0_1_2 : S1x1x33554432.ReducesTo [0, 1, 2] S_
  h_S_ : 0 < S_.numel

variable [Facts]

def fn {F : FTy → Type} [FloatOps F] (main_arg0 : FVec F S1x1x33554432 .f32) : IVec S_ 1 :=
  let main_v0 : FVec F S1x1x33554432 .f32 := Host.absf main_arg0
  let main_cst : FVec F S_ .f32 := constant S_ .f32 0x7F800000#32
  let main_v1 : FVec F S1x1x33554432 .f32 := broadcastInDim S1x1x33554432 ![] bcast_S_S1x1x33554432 main_cst
  let main_v2 : IVec S1x1x33554432 1 := cmpf .olt main_v0 main_v1
  let main_c : IVec S_ 1 := constantI S_ 1 1#1
  let main_v3 : IVec S_ 1 := (fun x v => Host.reduce IntOp.andi x v reducesTo_S1x1x33554432_S_d0_1_2 h_S_) main_v2 main_c
  main_v3
-- ==== Kernel.lean ====
abbrev S1x1x33554432 : Shape := ⟨3, ![1, 1, 33554432]⟩
abbrev S33554432 : Shape := ⟨1, ![33554432]⟩
abbrev S262144x128 : Shape := ⟨2, ![262144, 128]⟩
abbrev S8192x128 : Shape := ⟨2, ![8192, 128]⟩
abbrev S1048576 : Shape := ⟨1, ![1048576]⟩
abbrev S1048576x1 : Shape := ⟨2, ![1048576, 1]⟩
abbrev S1048576x2 : Shape := ⟨2, ![1048576, 2]⟩
abbrev S2097152 : Shape := ⟨1, ![2097152]⟩
abbrev S31457280 : Shape := ⟨1, ![31457280]⟩
abbrev S16384x128 : Shape := ⟨2, ![16384, 128]⟩
abbrev S2097152x1 : Shape := ⟨2, ![2097152, 1]⟩
abbrev S2097152x2 : Shape := ⟨2, ![2097152, 2]⟩
abbrev S4194304 : Shape := ⟨1, ![4194304]⟩
abbrev S29360128 : Shape := ⟨1, ![29360128]⟩
abbrev S32768x128 : Shape := ⟨2, ![32768, 128]⟩
abbrev S4194304x1 : Shape := ⟨2, ![4194304, 1]⟩
abbrev S4194304x2 : Shape := ⟨2, ![4194304, 2]⟩
abbrev S8388608 : Shape := ⟨1, ![8388608]⟩
abbrev S25165824 : Shape := ⟨1, ![25165824]⟩
abbrev S65536x128 : Shape := ⟨2, ![65536, 128]⟩
abbrev S8388608x1 : Shape := ⟨2, ![8388608, 1]⟩
abbrev S8388608x2 : Shape := ⟨2, ![8388608, 2]⟩
abbrev S16777216 : Shape := ⟨1, ![16777216]⟩
abbrev S131072x128 : Shape := ⟨2, ![131072, 128]⟩
abbrev S16777216x1 : Shape := ⟨2, ![16777216, 1]⟩
abbrev S16777216x2 : Shape := ⟨2, ![16777216, 2]⟩

abbrev nBuf : Space → Nat
  | .hbm => 56
  | .vmem => 36
  | .smem => 0
  | _ => 0

abbrev bufTy : (tb : Table) → Fin (tcTables nBuf tb) → BufTy
  | .hbm, ⟨0, _⟩ => ⟨S1x1x33554432, .f32⟩
  | .hbm, ⟨1, _⟩ => ⟨S33554432, .f32⟩
  | .hbm, ⟨2, _⟩ => ⟨S262144x128, .f32⟩
  | .hbm, ⟨3, _⟩ => ⟨S8192x128, .f32⟩
  | .hbm, ⟨4, _⟩ => ⟨S8192x128, .f32⟩
  | .hbm, ⟨5, _⟩ => ⟨S1048576, .f32⟩
  | .hbm, ⟨6, _⟩ => ⟨S1048576, .f32⟩
  | .hbm, ⟨7, _⟩ => ⟨S1048576x1, .f32⟩
  | .hbm, ⟨8, _⟩ => ⟨S1048576x1, .f32⟩
  | .hbm, ⟨9, _⟩ => ⟨S1048576x2, .f32⟩
  | .hbm, ⟨10, _⟩ => ⟨S2097152, .f32⟩
  | .hbm, ⟨11, _⟩ => ⟨S31457280, .f32⟩
  | .hbm, ⟨12, _⟩ => ⟨S33554432, .f32⟩
  | .hbm, ⟨13, _⟩ => ⟨S262144x128, .f32⟩
  | .hbm, ⟨14, _⟩ => ⟨S16384x128, .f32⟩
  | .hbm, ⟨15, _⟩ => ⟨S16384x128, .f32⟩
  | .hbm, ⟨16, _⟩ => ⟨S2097152, .f32⟩
  | .hbm, ⟨17, _⟩ => ⟨S2097152, .f32⟩
  | .hbm, ⟨18, _⟩ => ⟨S2097152x1, .f32⟩
  | .hbm, ⟨19, _⟩ => ⟨S2097152x1, .f32⟩
  | .hbm, ⟨20, _⟩ => ⟨S2097152x2, .f32⟩
  | .hbm, ⟨21, _⟩ => ⟨S4194304, .f32⟩
  | .hbm, ⟨22, _⟩ => ⟨S29360128, .f32⟩
  | .hbm, ⟨23, _⟩ => ⟨S33554432, .f32⟩
  | .hbm, ⟨24, _⟩ => ⟨S262144x128, .f32⟩
  | .hbm, ⟨25, _⟩ => ⟨S32768x128, .f32⟩
  | .hbm, ⟨26, _⟩ => ⟨S32768x128, .f32⟩
  | .hbm, ⟨27, _⟩ => ⟨S4194304, .f32⟩
  | .hbm, ⟨28, _⟩ => ⟨S4194304, .f32⟩
  | .hbm, ⟨29, _⟩ => ⟨S4194304x1, .f32⟩
  | .hbm, ⟨30, _⟩ => ⟨S4194304x1, .f32⟩
  | .hbm, ⟨31, _⟩ => ⟨S4194304x2, .f32⟩
  | .hbm, ⟨32, _⟩ => ⟨S8388608, .f32⟩
  | .hbm, ⟨33, _⟩ => ⟨S25165824, .f32⟩
  | .hbm, ⟨34, _⟩ => ⟨S33554432, .f32⟩
  | .hbm, ⟨35, _⟩ => ⟨S262144x128, .f32⟩
  | .hbm, ⟨36, _⟩ => ⟨S65536x128, .f32⟩
  | .hbm, ⟨37, _⟩ => ⟨S65536x128, .f32⟩
  | .hbm, ⟨38, _⟩ => ⟨S8388608, .f32⟩
  | .hbm, ⟨39, _⟩ => ⟨S8388608, .f32⟩
  | .hbm, ⟨40, _⟩ => ⟨S8388608x1, .f32⟩
  | .hbm, ⟨41, _⟩ => ⟨S8388608x1, .f32⟩
  | .hbm, ⟨42, _⟩ => ⟨S8388608x2, .f32⟩
  | .hbm, ⟨43, _⟩ => ⟨S16777216, .f32⟩
  | .hbm, ⟨44, _⟩ => ⟨S16777216, .f32⟩
  | .hbm, ⟨45, _⟩ => ⟨S33554432, .f32⟩
  | .hbm, ⟨46, _⟩ => ⟨S262144x128, .f32⟩
  | .hbm, ⟨47, _⟩ => ⟨S131072x128, .f32⟩
  | .hbm, ⟨48, _⟩ => ⟨S131072x128, .f32⟩
  | .hbm, ⟨49, _⟩ => ⟨S16777216, .f32⟩
  | .hbm, ⟨50, _⟩ => ⟨S16777216, .f32⟩
  | .hbm, ⟨51, _⟩ => ⟨S16777216x1, .f32⟩
  | .hbm, ⟨52, _⟩ => ⟨S16777216x1, .f32⟩
  | .hbm, ⟨53, _⟩ => ⟨S16777216x2, .f32⟩
  | .hbm, ⟨54, _⟩ => ⟨S33554432, .f32⟩
  | .hbm, ⟨55, _⟩ => ⟨S1x1x33554432, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S8192x128, .f32⟩
  | .local _ .vmem, ⟨21, _⟩ => ⟨S8192x128, .f32⟩
  | .local _ .vmem, ⟨22, _⟩ => ⟨S8192x128, .f32⟩
  | .local _ .vmem, ⟨23, _⟩ => ⟨S8192x128, .f32⟩
  | .local _ .vmem, ⟨24, _⟩ => ⟨S8192x128, .f32⟩
  | .local _ .vmem, ⟨25, _⟩ => ⟨S8192x128, .f32⟩
  | .local _ .vmem, ⟨26, _⟩ => ⟨S8192x128, .f32⟩
  | .local _ .vmem, ⟨27, _⟩ => ⟨S8192x128, .f32⟩
  | .local _ .vmem, ⟨28, _⟩ => ⟨S8192x128, .f32⟩
  | .local _ .vmem, ⟨29, _⟩ => ⟨S8192x128, .f32⟩
  | .local _ .vmem, ⟨30, _⟩ => ⟨S8192x128, .f32⟩
  | .local _ .vmem, ⟨31, _⟩ => ⟨S8192x128, .f32⟩
  | .local _ .vmem, ⟨32, _⟩ => ⟨S8192x128, .f32⟩
  | .local _ .vmem, ⟨33, _⟩ => ⟨S8192x128, .f32⟩
  | .local _ .vmem, ⟨34, _⟩ => ⟨S8192x128, .f32⟩
  | .local _ .vmem, ⟨35, _⟩ => ⟨S8192x128, .f32⟩
  | _, _ => ⟨S1x1x33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12_0 : Ref sig .tc := ⟨.hbm, 14, rfl⟩
abbrev main_v12_1 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22_0 : Ref sig .tc := ⟨.hbm, 25, rfl⟩
abbrev main_v22_1 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32_0 : Ref sig .tc := ⟨.hbm, 36, rfl⟩
abbrev main_v32_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42_0 : Ref sig .tc := ⟨.hbm, 47, rfl⟩
abbrev main_v42_1 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8192x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8192x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8192x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S1x1x33554432_S33554432 : S1x1x33554432.ShapeCasts S33554432
  shapeCasts_S33554432_S262144x128 : S33554432.ShapeCasts S262144x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1048576 : S8192x128.ShapeCasts S1048576
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  shapeCasts_S1048576x2_S2097152 : S1048576x2.ShapeCasts S2097152
  slices_S33554432_S31457280_2097152 : S33554432.Slices ![2097152] S31457280
  concatenates_S2097152_S31457280_S33554432_d0 : Shape.Concatenates [S2097152, S31457280] S33554432 0
  shapeCasts_S16384x128_S2097152 : S16384x128.ShapeCasts S2097152
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  shapeCasts_S2097152x2_S4194304 : S2097152x2.ShapeCasts S4194304
  slices_S33554432_S29360128_4194304 : S33554432.Slices ![4194304] S29360128
  concatenates_S4194304_S29360128_S33554432_d0 : Shape.Concatenates [S4194304, S29360128] S33554432 0
  shapeCasts_S32768x128_S4194304 : S32768x128.ShapeCasts S4194304
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  shapeCasts_S4194304x2_S8388608 : S4194304x2.ShapeCasts S8388608
  slices_S33554432_S25165824_8388608 : S33554432.Slices ![8388608] S25165824
  concatenates_S8388608_S25165824_S33554432_d0 : Shape.Concatenates [S8388608, S25165824] S33554432 0
  shapeCasts_S65536x128_S8388608 : S65536x128.ShapeCasts S8388608
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  slices_S33554432_S16777216_16777216 : S33554432.Slices ![16777216] S16777216
  concatenates_S16777216_S16777216_S33554432_d0 : Shape.Concatenates [S16777216, S16777216] S33554432 0
  shapeCasts_S131072x128_S16777216 : S131072x128.ShapeCasts S16777216
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  shapeCasts_S16777216x2_S33554432 : S16777216x2.ShapeCasts S33554432
  shapeCasts_S33554432_S1x1x33554432 : S33554432.ShapeCasts S1x1x33554432
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x128.size a
  hwx0_3 : ∀ i : grid0.Coords, EltTy.bits .f32 = 32 ∨ (Rect.block (s := S8192x128) S8192x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S262144x128.size a
  hwx1_0 : ∀ i : grid1.Coords, EltTy.bits .f32 = 32 ∨ (Rect.block (s := S262144x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S262144x128.size a
  hwx1_1 : ∀ i : grid1.Coords, EltTy.bits .f32 = 32 ∨ (Rect.block (s := S262144x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S16384x128.size a
  hwx1_2 : ∀ i : grid1.Coords, EltTy.bits .f32 = 32 ∨ (Rect.block (s := S16384x128) S8192x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S16384x128.size a
  hwx1_3 : ∀ i : grid1.Coords, EltTy.bits .f32 = 32 ∨ (Rect.block (s := S16384x128) S8192x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S262144x128.size a
  hwx2_0 : ∀ i : grid2.Coords, EltTy.bits .f32 = 32 ∨ (Rect.block (s := S262144x128) S8192x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S262144x128.size a
  hwx2_1 : ∀ i : grid2.Coords, EltTy.bits .f32 = 32 ∨ (Rect.block (s := S262144x128) S8192x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x128.size a ≤ S32768x128.size a
  hwx2_2 : ∀ i : grid2.Coords, EltTy.bits .f32 = 32 ∨ (Rect.block (s := S32768x128) S8192x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x128.size a ≤ S32768x128.size a
  hwx2_3 : ∀ i : grid2.Coords, EltTy.bits .f32 = 32 ∨ (Rect.block (s := S32768x128) S8192x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S262144x128.size a
  hwx3_0 : ∀ i : grid3.Coords, EltTy.bits .f32 = 32 ∨ (Rect.block (s := S262144x128) S8192x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S262144x128.size a
  hwx3_1 : ∀ i : grid3.Coords, EltTy.bits .f32 = 32 ∨ (Rect.block (s := S262144x128) S8192x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x128.size a ≤ S65536x128.size a
  hwx3_2 : ∀ i : grid3.Coords, EltTy.bits .f32 = 32 ∨ (Rect.block (s := S65536x128) S8192x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x128.size a ≤ S65536x128.size a
  hwx3_3 : ∀ i : grid3.Coords, EltTy.bits .f32 = 32 ∨ (Rect.block (s := S65536x128) S8192x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S262144x128.size a
  hwx4_0 : ∀ i : grid4.Coords, EltTy.bits .f32 = 32 ∨ (Rect.block (s := S262144x128) S8192x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x128.size a ≤ S262144x128.size a
  hwx4_1 : ∀ i : grid4.Coords, EltTy.bits .f32 = 32 ∨ (Rect.block (s := S262144x128) S8192x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x128.size a ≤ S131072x128.size a
  hwx4_2 : ∀ i : grid4.Coords, EltTy.bits .f32 = 32 ∨ (Rect.block (s := S131072x128) S8192x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8192x128.size a ≤ S131072x128.size a
  hwx4_3 : ∀ i : grid4.Coords, EltTy.bits .f32 = 32 ∨ (Rect.block (s := S131072x128) S8192x128.size (cc4_transform_3 i) (hinb4_3 i)).WholeWords (EltTy.packing .f32)

variable [Facts₀]

abbrev win0_0 : Pipeline.Window sig grid0 :=
  Pipeline.Window.ofSpec (Memref.whole main_v1) S8192x128.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8192x128.size cc0_transform_2 reads0_2 true false 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8192x128.size cc0_transform_3 reads0_3 true false 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12_0) S8192x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12_1) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S8192x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22_0) S8192x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22_1) S8192x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v31) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S8192x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32_0) S8192x128.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v32_1) S8192x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S8192x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S8192x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42_0) S8192x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v42_1) S8192x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S1x1x33554432 : Shape := ⟨3, ![1, 1, 33554432]⟩
abbrev S0 : Shape := ⟨1, ![0]⟩
abbrev S1x1x2097152 : Shape := ⟨3, ![1, 1, 2097152]⟩
abbrev S1x1x1048576 : Shape := ⟨3, ![1, 1, 1048576]⟩
abbrev S_ : Shape := ⟨0, ![]⟩
abbrev S1x1x1048576x1 : Shape := ⟨4, ![1, 1, 1048576, 1]⟩
abbrev S1x1x1048576x2 : Shape := ⟨4, ![1, 1, 1048576, 2]⟩
abbrev S1 : Shape := ⟨1, ![1]⟩
abbrev S1x1x4194304 : Shape := ⟨3, ![1, 1, 4194304]⟩
abbrev S1x1x2097152x1 : Shape := ⟨4, ![1, 1, 2097152, 1]⟩
abbrev S1x1x2097152x2 : Shape := ⟨4, ![1, 1, 2097152, 2]⟩
abbrev S1x1x8388608 : Shape := ⟨3, ![1, 1, 8388608]⟩
abbrev S1x1x4194304x1 : Shape := ⟨4, ![1, 1, 4194304, 1]⟩
abbrev S1x1x4194304x2 : Shape := ⟨4, ![1, 1, 4194304, 2]⟩
abbrev S1x1x16777216 : Shape := ⟨3, ![1, 1, 16777216]⟩
abbrev S1x1x8388608x1 : Shape := ⟨4, ![1, 1, 8388608, 1]⟩
abbrev S1x1x8388608x2 : Shape := ⟨4, ![1, 1, 8388608, 2]⟩
abbrev S1x1x16777216x1 : Shape := ⟨4, ![1, 1, 16777216, 1]⟩
abbrev S1x1x16777216x2 : Shape := ⟨4, ![1, 1, 16777216, 2]⟩

abbrev nBuf : Space → Nat
  | .hbm => 89
  | .vmem => 0
  | .smem => 0
  | _ => 0

abbrev bufTy : (tb : Table) → Fin (tcTables nBuf tb) → BufTy
  | .hbm, ⟨0, _⟩ => ⟨S1x1x33554432, .f32⟩
  | .hbm, ⟨1, _⟩ => ⟨S0, .i32⟩
  | .hbm, ⟨2, _⟩ => ⟨S1x1x2097152, .f32⟩
  | .hbm, ⟨3, _⟩ => ⟨S1x1x1048576, .f32⟩
  | .hbm, ⟨4, _⟩ => ⟨S1x1x1048576, .f32⟩
  | .hbm, ⟨5, _⟩ => ⟨S1x1x1048576, .f32⟩
  | .hbm, ⟨6, _⟩ => ⟨S_, .f32⟩
  | .hbm, ⟨7, _⟩ => ⟨S1x1x1048576, .f32⟩
  | .hbm, ⟨8, _⟩ => ⟨S1x1x1048576, .f32⟩
  | .hbm, ⟨9, _⟩ => ⟨S1x1x1048576, .f32⟩
  | .hbm, ⟨10, _⟩ => ⟨S_, .f32⟩
  | .hbm, ⟨11, _⟩ => ⟨S1x1x1048576, .f32⟩
  | .hbm, ⟨12, _⟩ => ⟨S1x1x1048576, .f32⟩
  | .hbm, ⟨13, _⟩ => ⟨S1x1x1048576x1, .f32⟩
  | .hbm, ⟨14, _⟩ => ⟨S1x1x1048576x1, .f32⟩
  | .hbm, ⟨15, _⟩ => ⟨S1x1x1048576x2, .f32⟩
  | .hbm, ⟨16, _⟩ => ⟨S1x1x2097152, .f32⟩
  | .hbm, ⟨17, _⟩ => ⟨S_, .i32⟩
  | .hbm, ⟨18, _⟩ => ⟨S1, .i32⟩
  | .hbm, ⟨19, _⟩ => ⟨S1x1x33554432, .f32⟩
  | .hbm, ⟨20, _⟩ => ⟨S1x1x4194304, .f32⟩
  | .hbm, ⟨21, _⟩ => ⟨S1x1x2097152, .f32⟩
  | .hbm, ⟨22, _⟩ => ⟨S1x1x2097152, .f32⟩
  | .hbm, ⟨23, _⟩ => ⟨S1x1x2097152, .f32⟩
  | .hbm, ⟨24, _⟩ => ⟨S_, .f32⟩
  | .hbm, ⟨25, _⟩ => ⟨S1x1x2097152, .f32⟩
  | .hbm, ⟨26, _⟩ => ⟨S1x1x2097152, .f32⟩
  | .hbm, ⟨27, _⟩ => ⟨S1x1x2097152, .f32⟩
  | .hbm, ⟨28, _⟩ => ⟨S_, .f32⟩
  | .hbm, ⟨29, _⟩ => ⟨S1x1x2097152, .f32⟩
  | .hbm, ⟨30, _⟩ => ⟨S1x1x2097152, .f32⟩
  | .hbm, ⟨31, _⟩ => ⟨S1x1x2097152x1, .f32⟩
  | .hbm, ⟨32, _⟩ => ⟨S1x1x2097152x1, .f32⟩
  | .hbm, ⟨33, _⟩ => ⟨S1x1x2097152x2, .f32⟩
  | .hbm, ⟨34, _⟩ => ⟨S1x1x4194304, .f32⟩
  | .hbm, ⟨35, _⟩ => ⟨S_, .i32⟩
  | .hbm, ⟨36, _⟩ => ⟨S1, .i32⟩
  | .hbm, ⟨37, _⟩ => ⟨S1x1x33554432, .f32⟩
  | .hbm, ⟨38, _⟩ => ⟨S1x1x8388608, .f32⟩
  | .hbm, ⟨39, _⟩ => ⟨S1x1x4194304, .f32⟩
  | .hbm, ⟨40, _⟩ => ⟨S1x1x4194304, .f32⟩
  | .hbm, ⟨41, _⟩ => ⟨S1x1x4194304, .f32⟩
  | .hbm, ⟨42, _⟩ => ⟨S_, .f32⟩
  | .hbm, ⟨43, _⟩ => ⟨S1x1x4194304, .f32⟩
  | .hbm, ⟨44, _⟩ => ⟨S1x1x4194304, .f32⟩
  | .hbm, ⟨45, _⟩ => ⟨S1x1x4194304, .f32⟩
  | .hbm, ⟨46, _⟩ => ⟨S_, .f32⟩
  | .hbm, ⟨47, _⟩ => ⟨S1x1x4194304, .f32⟩
  | .hbm, ⟨48, _⟩ => ⟨S1x1x4194304, .f32⟩
  | .hbm, ⟨49, _⟩ => ⟨S1x1x4194304x1, .f32⟩
  | .hbm, ⟨50, _⟩ => ⟨S1x1x4194304x1, .f32⟩
  | .hbm, ⟨51, _⟩ => ⟨S1x1x4194304x2, .f32⟩
  | .hbm, ⟨52, _⟩ => ⟨S1x1x8388608, .f32⟩
  | .hbm, ⟨53, _⟩ => ⟨S_, .i32⟩
  | .hbm, ⟨54, _⟩ => ⟨S1, .i32⟩
  | .hbm, ⟨55, _⟩ => ⟨S1x1x33554432, .f32⟩
  | .hbm, ⟨56, _⟩ => ⟨S1x1x16777216, .f32⟩
  | .hbm, ⟨57, _⟩ => ⟨S1x1x8388608, .f32⟩
  | .hbm, ⟨58, _⟩ => ⟨S1x1x8388608, .f32⟩
  | .hbm, ⟨59, _⟩ => ⟨S1x1x8388608, .f32⟩
  | .hbm, ⟨60, _⟩ => ⟨S_, .f32⟩
  | .hbm, ⟨61, _⟩ => ⟨S1x1x8388608, .f32⟩
  | .hbm, ⟨62, _⟩ => ⟨S1x1x8388608, .f32⟩
  | .hbm, ⟨63, _⟩ => ⟨S1x1x8388608, .f32⟩
  | .hbm, ⟨64, _⟩ => ⟨S_, .f32⟩
  | .hbm, ⟨65, _⟩ => ⟨S1x1x8388608, .f32⟩
  | .hbm, ⟨66, _⟩ => ⟨S1x1x8388608, .f32⟩
  | .hbm, ⟨67, _⟩ => ⟨S1x1x8388608x1, .f32⟩
  | .hbm, ⟨68, _⟩ => ⟨S1x1x8388608x1, .f32⟩
  | .hbm, ⟨69, _⟩ => ⟨S1x1x8388608x2, .f32⟩
  | .hbm, ⟨70, _⟩ => ⟨S1x1x16777216, .f32⟩
  | .hbm, ⟨71, _⟩ => ⟨S_, .i32⟩
  | .hbm, ⟨72, _⟩ => ⟨S1, .i32⟩
  | .hbm, ⟨73, _⟩ => ⟨S1x1x33554432, .f32⟩
  | .hbm, ⟨74, _⟩ => ⟨S1x1x16777216, .f32⟩
  | .hbm, ⟨75, _⟩ => ⟨S1x1x16777216, .f32⟩
  | .hbm, ⟨76, _⟩ => ⟨S1x1x16777216, .f32⟩
  | .hbm, ⟨77, _⟩ => ⟨S_, .f32⟩
  | .hbm, ⟨78, _⟩ => ⟨S1x1x16777216, .f32⟩
  | .hbm, ⟨79, _⟩ => ⟨S1x1x16777216, .f32⟩
  | .hbm, ⟨80, _⟩ => ⟨S1x1x16777216, .f32⟩
  | .hbm, ⟨81, _⟩ => ⟨S_, .f32⟩
  | .hbm, ⟨82, _⟩ => ⟨S1x1x16777216, .f32⟩
  | .hbm, ⟨83, _⟩ => ⟨S1x1x16777216, .f32⟩
  | .hbm, ⟨84, _⟩ => ⟨S1x1x16777216x1, .f32⟩
  | .hbm, ⟨85, _⟩ => ⟨S1x1x16777216x1, .f32⟩
  | .hbm, ⟨86, _⟩ => ⟨S1x1x16777216x2, .f32⟩
  | .hbm, ⟨87, _⟩ => ⟨S1x1x33554432, .f32⟩
  | .hbm, ⟨88, _⟩ => ⟨S1x1x33554432, .f32⟩
  | _, _ => ⟨S1x1x33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_7 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_8 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_9 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c_10 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_11 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_12 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩

abbrev nD : Nat := 1
abbrev τ : Topo := Topo.v7x

variable {F : FTy → Type} [FloatOps F]

class Facts₀ : Prop where
  hz_S0 : S0.numel = 0
  slices_S1x1x33554432_S1x1x2097152_0_0_0 : S1x1x33554432.Slices ![0, 0, 0] S1x1x2097152
  slices_S1x1x2097152_S1x1x1048576_0_0_0 : S1x1x2097152.Slices ![0, 0, 0] S1x1x1048576
  slices_S1x1x2097152_S1x1x1048576_0_0_1048576 : S1x1x2097152.Slices ![0, 0, 1048576] S1x1x1048576
  bcast_S_S1x1x1048576 : S_.BroadcastsInDim S1x1x1048576 (![] : Fin 0 → Fin S1x1x1048576.rank)
  bcast_S1x1x1048576_S1x1x1048576x1_0_1_2 : S1x1x1048576.BroadcastsInDim S1x1x1048576x1 (![0, 1, 2] : Fin 3 → Fin S1x1x1048576x1.rank)
  concatenates_S1x1x1048576x1_S1x1x1048576x1_S1x1x1048576x2_d3 : Shape.Concatenates [S1x1x1048576x1, S1x1x1048576x1] S1x1x1048576x2 3
  shapeCasts_S1x1x1048576x2_S1x1x2097152 : S1x1x1048576x2.ShapeCasts S1x1x2097152
  bcast_S_S1 : S_.BroadcastsInDim S1 (![] : Fin 0 → Fin S1.rank)
  slices_S1x1x33554432_S1x1x4194304_0_0_0 : S1x1x33554432.Slices ![0, 0, 0] S1x1x4194304
  slices_S1x1x4194304_S1x1x2097152_0_0_0 : S1x1x4194304.Slices ![0, 0, 0] S1x1x2097152
  slices_S1x1x4194304_S1x1x2097152_0_0_2097152 : S1x1x4194304.Slices ![0, 0, 2097152] S1x1x2097152
  bcast_S_S1x1x2097152 : S_.BroadcastsInDim S1x1x2097152 (![] : Fin 0 → Fin S1x1x2097152.rank)
  bcast_S1x1x2097152_S1x1x2097152x1_0_1_2 : S1x1x2097152.BroadcastsInDim S1x1x2097152x1 (![0, 1, 2] : Fin 3 → Fin S1x1x2097152x1.rank)
  concatenates_S1x1x2097152x1_S1x1x2097152x1_S1x1x2097152x2_d3 : Shape.Concatenates [S1x1x2097152x1, S1x1x2097152x1] S1x1x2097152x2 3
  shapeCasts_S1x1x2097152x2_S1x1x4194304 : S1x1x2097152x2.ShapeCasts S1x1x4194304
  slices_S1x1x33554432_S1x1x8388608_0_0_0 : S1x1x33554432.Slices ![0, 0, 0] S1x1x8388608
  slices_S1x1x8388608_S1x1x4194304_0_0_0 : S1x1x8388608.Slices ![0, 0, 0] S1x1x4194304
  slices_S1x1x8388608_S1x1x4194304_0_0_4194304 : S1x1x8388608.Slices ![0, 0, 4194304] S1x1x4194304
  bcast_S_S1x1x4194304 : S_.BroadcastsInDim S1x1x4194304 (![] : Fin 0 → Fin S1x1x4194304.rank)
  bcast_S1x1x4194304_S1x1x4194304x1_0_1_2 : S1x1x4194304.BroadcastsInDim S1x1x4194304x1 (![0, 1, 2] : Fin 3 → Fin S1x1x4194304x1.rank)
  concatenates_S1x1x4194304x1_S1x1x4194304x1_S1x1x4194304x2_d3 : Shape.Concatenates [S1x1x4194304x1, S1x1x4194304x1] S1x1x4194304x2 3
  shapeCasts_S1x1x4194304x2_S1x1x8388608 : S1x1x4194304x2.ShapeCasts S1x1x8388608
  slices_S1x1x33554432_S1x1x16777216_0_0_0 : S1x1x33554432.Slices ![0, 0, 0] S1x1x16777216
  slices_S1x1x16777216_S1x1x8388608_0_0_0 : S1x1x16777216.Slices ![0, 0, 0] S1x1x8388608
  slices_S1x1x16777216_S1x1x8388608_0_0_8388608 : S1x1x16777216.Slices ![0, 0, 8388608] S1x1x8388608
  bcast_S_S1x1x8388608 : S_.BroadcastsInDim S1x1x8388608 (![] : Fin 0 → Fin S1x1x8388608.rank)
  bcast_S1x1x8388608_S1x1x8388608x1_0_1_2 : S1x1x8388608.BroadcastsInDim S1x1x8388608x1 (![0, 1, 2] : Fin 3 → Fin S1x1x8388608x1.rank)
  concatenates_S1x1x8388608x1_S1x1x8388608x1_S1x1x8388608x2_d3 : Shape.Concatenates [S1x1x8388608x1, S1x1x8388608x1] S1x1x8388608x2 3
  shapeCasts_S1x1x8388608x2_S1x1x16777216 : S1x1x8388608x2.ShapeCasts S1x1x16777216
  slices_S1x1x33554432_S1x1x16777216_0_0_16777216 : S1x1x33554432.Slices ![0, 0, 16777216] S1x1x16777216
  bcast_S_S1x1x16777216 : S_.BroadcastsInDim S1x1x16777216 (![] : Fin 0 → Fin S1x1x16777216.rank)
  bcast_S1x1x16777216_S1x1x16777216x1_0_1_2 : S1x1x16777216.BroadcastsInDim S1x1x16777216x1 (![0, 1, 2] : Fin 3 → Fin S1x1x16777216x1.rank)
  concatenates_S1x1x16777216x1_S1x1x16777216x1_S1x1x16777216x2_d3 : Shape.Concatenates [S1x1x16777216x1, S1x1x16777216x1] S1x1x16777216x2 3
  shapeCasts_S1x1x16777216x2_S1x1x33554432 : S1x1x16777216x2.ShapeCasts S1x1x33554432
  scatter_S1x1x33554432_S1_S1x1x2097152_012_n_2_0_wf : ScatterDims.WF S1x1x33554432 S1 S1x1x2097152 [0, 1, 2] [] [2] 0
  scatter_S1x1x33554432_S1_S1x1x4194304_012_n_2_0_wf : ScatterDims.WF S1x1x33554432 S1 S1x1x4194304 [0, 1, 2] [] [2] 0
  scatter_S1x1x33554432_S1_S1x1x8388608_012_n_2_0_wf : ScatterDims.WF S1x1x33554432 S1 S1x1x8388608 [0, 1, 2] [] [2] 0
  scatter_S1x1x33554432_S1_S1x1x16777216_012_n_2_0_wf : ScatterDims.WF S1x1x33554432 S1 S1x1x16777216 [0, 1, 2] [] [2] 0
  scatter_S1x1x33554432_S0_S1x1x33554432_012_n_n_0_wf : ScatterDims.WF S1x1x33554432 S0 S1x1x33554432 [0, 1, 2] [] [] 0

variable [Facts₀]

def scatter_S1x1x33554432_S1_S1x1x2097152_012_n_2_0 : ScatterDims S1x1x33554432 S1 S1x1x2097152 where
  updateWindowDims := [0, 1, 2]
  insertedWindowDims := []
  scatterDimsToOperandDims := [2]
  indexVectorDim := 0
  wf := scatter_S1x1x33554432_S1_S1x1x2097152_012_n_2_0_wf
def scatter_S1x1x33554432_S1_S1x1x4194304_012_n_2_0 : ScatterDims S1x1x33554432 S1 S1x1x4194304 where
  updateWindowDims := [0, 1, 2]
  insertedWindowDims := []
  scatterDimsToOperandDims := [2]
  indexVectorDim := 0
  wf := scatter_S1x1x33554432_S1_S1x1x4194304_012_n_2_0_wf
def scatter_S1x1x33554432_S1_S1x1x8388608_012_n_2_0 : ScatterDims S1x1x33554432 S1 S1x1x8388608 where
  updateWindowDims := [0, 1, 2]
  insertedWindowDims := []
  scatterDimsToOperandDims := [2]
  indexVectorDim := 0
  wf := scatter_S1x1x33554432_S1_S1x1x8388608_012_n_2_0_wf
def scatter_S1x1x33554432_S1_S1x1x16777216_012_n_2_0 : ScatterDims S1x1x33554432 S1 S1x1x16777216 where
  updateWindowDims := [0, 1, 2]
  insertedWindowDims := []
  scatterDimsToOperandDims := [2]
  indexVectorDim := 0
  wf := scatter_S1x1x33554432_S1_S1x1x16777216_012_n_2_0_wf
def scatter_S1x1x33554432_S0_S1x1x33554432_012_n_n_0 : ScatterDims S1x1x33554432 S0 S1x1x33554432 where
  updateWindowDims := [0, 1, 2]
  insertedWindowDims := []
  scatterDimsToOperandDims := []
  indexVectorDim := 0
  wf := scatter_S1x1x33554432_S0_S1x1x33554432_012_n_n_0_wf

class Facts : Prop extends Facts₀ where

variable [Facts]
-- ==== Proof.KI.Region0.lean ====
/-
  Butterfly call 0 of the idealized kernel program (custom_call 0, pipeline `cfg0`), on a grid of 1 point(s).

  The call reads ONE array `x` of 262144 rows of 128 floats (`main_v1`) through TWO windows — window 0 takes the block
  of 8192 rows at block index `t`, window 1 the block at block index `t + 1` — and writes two fresh arrays
  (`main_v2_0`, `main_v2_1`) through windows 2 and 3, block `t` of each. The body loads both input blocks whole and
  stores `(a + b) * sc` whole into window 2's buffer and `(a - b) * sc` whole into window 3's.

  Stated here, at any contents `V` of the core's buffers when the region is entered: each window's block at a point,
  what the body leaves in each output's buffer (one whole-block store each), the body's triple, the pipeline's proof
  data — the two input windows hold the left and the right half of the shared array's share — and the body obligation
  at every point.
-/
import proofs.«117748_j28784870817852_1_alg».proof.Proof.Gen.KernelIdeal.Launch
import proofs.«117748_j28784870817852_1_alg».proof.Proof.Gen.KernelIdeal.Skeleton
import proofs.«117748_j28784870817852_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Butterfly

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's buffer -/

/-- The whole block: the one rectangle every load and store of the body goes through. -/
abbrev r0 : Rect S8192x128 := Rect.unit (s := S8192x128) ![0, 0] S8192x128.size inb_S8192x128_S8192x128_0_0

/-- Window 2's buffer after the body: its one store, the scaled sum of the two input blocks. -/
def out0_2 (x0 x1 : Vec F S8192x128 .f32) : Vec F S8192x128 .f32 :=
  View.canon [⟨r0, k0_pay3 (View.ld x0 r0) (View.ld x1 r0)⟩]

/-- Window 3's buffer after the body: its one store, the scaled difference of the two input blocks. -/
def out0_3 (x0 x1 : Vec F S8192x128 .f32) : Vec F S8192x128 .f32 :=
  View.canon [⟨r0, k0_pay4 (View.ld x0 r0) (View.ld x1 r0)⟩]

/-- One whole-block store covers the buffer. -/
theorem cover0 (p0 : Vec F S8192x128 .f32) (y : S8192x128.Idx) :
    ∃ pc ∈ ([⟨r0, p0⟩] : List (View.Piece (Elt F) S8192x128 .f32)), y ∈ pc.1.set :=
  View.cover_of_tiled [⟨r0, p0⟩] S8192x128.size (by rfl) y

/-! ## The body's triple -/

set_option maxHeartbeats 1000000 in
/-- The body on whole staging memrefs, the inputs' at contents `x0`, `x1` and the outputs' at anything, runs to the
    continuation holding the inputs' as they were and the outputs' at `out0_2`, `out0_3` of the inputs'. -/
theorem sound_kernel0 (c : Dev nD) (E : Set ℕ) (i : grid0.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole) (arg4 : Memref sig .tc .vmem S8192x128 .f32) (harg4 : arg4.IsWhole)
    (x0 x1 : Vec F S8192x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__butterfly_kernel i arg1 harg1 arg2 harg2 arg3 harg3 arg4 harg4) K := by
  simp only [cc0__butterfly_kernel_eq_skeleton]; unfold cc0__butterfly_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-! ## The pipeline's proof data -/

/-- The proof data of pipeline 0 on core `c`: the arrays as the region finds them; after the body at point `t` each
    input's buffer at its block and each output's at what the body stores of the two input blocks; the invariant the
    scoped rest and the generator register, untouched; nothing owed. The two input windows read ONE array: window 0
    holds the left half of its share and window 1 the right half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq0 (c : Dev nD) (w : Fin cfg0.W) : (dat0 V c).A w = V c (Pipeline.arrRef spec0 w) := by
  dsimp only [dat0]

theorem q0_0 (c : Dev nD) : (dat0 V c).q 0 = fullShare.left := by dsimp only [dat0]
theorem q0_1 (c : Dev nD) : (dat0 V c).q 1 = fullShare.right := by dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Butterfly

end
-- ==== Proof.KI.Split0.lean ====
/-
  The first butterfly call's arrays taken out of, and put back among, the core's unscoped buffers.

  The call has four windows on THREE arrays: the two input windows read one array, the two output windows write one
  fresh array each. So the windows' arrays are not pairwise distinct, and the array the input windows share cannot be
  held whole by both. The core holds each of the three buffers whole at the full share; the pipeline's proof data holds
  the shared input array once per input window, at the left half of the full share for window 0 and at the right half
  for window 1, and each output array at the full share. A share is the join of its two halves, and a points-to
  assertion splits along such a join at unchanged contents: entering the region deals the shared array's full share as
  its two halves, leaving it joins the two halves again.

  Stated here for any proof data whose two input shares are those halves, at contents kept as variables: the three
  distinct arrays behind the four windows; the buffers behind them and the pipeline's arrays, each as a chain of
  points-to assertions; the entry entailment and the exit entailment.
-/
import proofs.«117748_j28784870817852_1_alg».proof.Proof.KI.Region0

set_option maxRecDepth 16384

noncomputable section

namespace Cert.KernelIdeal.Butterfly

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays behind the windows -/

/-- The four windows stand on three distinct arrays: both input windows read the first. -/
theorem arrRef_image0 : Finset.univ.image (Pipeline.arrRef spec0) = {main_v1, main_v2_0, main_v2_1} := by decide

/-- The distinct buffers behind the windows' arrays, each whole at the full share, one by one. -/
theorem arrBufs0 (c : Dev nD) (W : (b : Ref sig .tc) → Buf (Elt F) ((c : Thread nD τ).loc b)) :
    (Pipeline.arrBufs spec0 c W : sProp 𝕄)
      = iprop((((c : Thread nD τ).loc main_v1) ↦{fullShare} W main_v1) ∗ (((c : Thread nD τ).loc main_v2_0) ↦{fullShare} W main_v2_0)
          ∗ (((c : Thread nD τ).loc main_v2_1) ↦{fullShare} W main_v2_1)) := by
  unfold Pipeline.arrBufs
  rw [arrRef_image0, bigSep_insert (by decide), bigSep_insert (by decide), bigSep_singleton]
  rfl

/-- A window's array is a whole buffer: held over all its elements, it is a points-to assertion on the buffer. -/
theorem arr_pt0 (c : Dev nD) (dat : Dat τ (Elt F) Unit ℕ (UR sig nD τ) ℕ cfg0 c) (w : Fin cfg0.W)
    (X : Buf (Elt F) ((cfg0.win w).arr.view.loc (c : Thread nD τ))) :
    ((cfg0.win w).arr.view.loc (c : Thread nD τ) ↦[(cfg0.win w).arr.view.set]{dat.share w} X : sProp 𝕄)
      = (((c : Thread nD τ).loc (Pipeline.arrRef spec0 w)) ↦{dat.share w} X) := by
  rw [(arr_whole0 w).set_eq_univ]

/-- Windows 0 and 1 are inputs: each holds its array at the proof data's own share. -/
theorem share0_0 (c : Dev nD) (dat : Dat τ (Elt F) Unit ℕ (UR sig nD τ) ℕ cfg0 c) : dat.share 0 = dat.q 0 := rfl
theorem share0_1 (c : Dev nD) (dat : Dat τ (Elt F) Unit ℕ (UR sig nD τ) ℕ cfg0 c) : dat.share 1 = dat.q 1 := rfl
/-- Windows 2 and 3 are outputs: each holds its array at the full share. -/
theorem share0_2 (c : Dev nD) (dat : Dat τ (Elt F) Unit ℕ (UR sig nD τ) ℕ cfg0 c) : dat.share 2 = fullShare := rfl
theorem share0_3 (c : Dev nD) (dat : Dat τ (Elt F) Unit ℕ (UR sig nD τ) ℕ cfg0 c) : dat.share 3 = fullShare := rfl

set_option maxHeartbeats 4000000 in
/-- The pipeline's arrays, window by window: the two input windows hold the shared array at the two halves of the
    full share, each output window its own array at the full share. -/
theorem arrays0 (c : Dev nD) (dat : Dat τ (Elt F) Unit ℕ (UR sig nD τ) ℕ cfg0 c)
    (hq0 : dat.q 0 = fullShare.left) (hq1 : dat.q 1 = fullShare.right)
    (G : (w : Fin cfg0.W) → Buf (Elt F) ((cfg0.win w).arr.view.loc (c : Thread nD τ))) :
    (dat.arrays G : sProp 𝕄)
      = iprop((((c : Thread nD τ).loc main_v1) ↦{fullShare.left} G 0) ∗ (((c : Thread nD τ).loc main_v1) ↦{fullShare.right} G 1)
          ∗ (((c : Thread nD τ).loc main_v2_0) ↦{fullShare} G 2) ∗ (((c : Thread nD τ).loc main_v2_1) ↦{fullShare} G 3)) := by
  unfold Dat.arrays
  rw [bigSep_W0, arr_pt0, arr_pt0, arr_pt0, arr_pt0, share0_0, share0_1, share0_2, share0_3, hq0, hq1]

/-! ## Entry and exit -/

/-- ENTRY: the core's unscoped buffers, whole at contents `W`, give the pipeline's arrays at contents `G` that agree
    with `W` — the shared input array's full share dealt as its left half to window 0 and its right half to window 1 —
    beside the unscoped buffers that are no window's array. -/
theorem arrays_of_unscoped0 (c : Dev nD) (dat : Dat τ (Elt F) Unit ℕ (UR sig nD τ) ℕ cfg0 c)
    (hq0 : dat.q 0 = fullShare.left) (hq1 : dat.q 1 = fullShare.right)
    (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (unscopedBufs c W : sProp 𝕄) ⊢ iprop(dat.arrays G ∗ Pipeline.unscopedRest spec0 c W) := by
  -- the unscoped buffers are the three buffers behind the windows' arrays and the rest; the rest passes through
  refine (Entails.of_eq (Pipeline.unscopedBufs_split₀ (fun _ : Unit => cfg0) () winFacts₀0.arr_unscoped c W)).trans (sep_mono ?_ .rfl)
  rw [arrBufs0, arrays0 c dat hq0 hq1 G, hG 0, hG 1, hG 2, hG 3]
  iintro ⟨H1, H2, H3⟩
  -- the full share of the shared array is the join of its halves: one half to each input window
  icases (pointsTo_share (PosShare.mem_left_op_right fullShare)).1 $$ H1 with ⟨Hl, Hr⟩
  isplitl [Hl]; · iexact Hl
  isplitl [Hr]; · iexact Hr
  isplitl [H2]; · iexact H2
  iexact H3

/-- EXIT: the pipeline's arrays at contents `G` beside the untouched rest at `W` are the core's unscoped buffers whole
    at any `W'` that is `G` at the windows' arrays and `W` elsewhere (the two halves of the shared input array's share
    joined again). -/
theorem unscoped_of_arrays0 (c : Dev nD) (dat : Dat τ (Elt F) Unit ℕ (UR sig nD τ) ℕ cfg0 c)
    (hq0 : dat.q 0 = fullShare.left) (hq1 : dat.q 1 = fullShare.right)
    (W W' : (b : Ref sig .tc) → Buf (Elt F) ((c : Thread nD τ).loc b))
    (G : (w : Fin cfg0.W) → Buf (Elt F) ((cfg0.win w).arr.view.loc (c : Thread nD τ)))
    (hG : ∀ w, G w = W' (Pipeline.arrRef spec0 w))
    (hrest : ∀ b, b ∉ Finset.univ.image (Pipeline.arrRef spec0) → W' b = W b) :
    iprop(dat.arrays G ∗ Pipeline.unscopedRest spec0 c W) ⊢ (unscopedBufs c W' : sProp 𝕄) := by
  refine Entails.trans (sep_mono ?_ (Entails.of_eq ?_))
    (Entails.of_eq (Pipeline.unscopedBufs_split₀ (fun _ : Unit => cfg0) () winFacts₀0.arr_unscoped c W').symm)
  · -- the arrays: both input windows hold the shared array at the same contents, so their halves join to the full share
    rw [arrBufs0, arrays0 c dat hq0 hq1 G, hG 0, hG 1, hG 2, hG 3]
    iintro ⟨Hl, Hr, H2, H3⟩
    isplitl [Hl Hr]
    · iapply (pointsTo_share (PosShare.mem_left_op_right fullShare)).2
      isplitl [Hl]; · iexact Hl
      iexact Hr
    isplitl [H2]; · iexact H2
    iexact H3
  · -- the rest: off the windows' arrays the two valuations agree
    unfold Pipeline.unscopedRest
    exact bigSep_congr fun b hb => by rw [hrest b (Finset.mem_sdiff.mp hb).2]

end Cert.KernelIdeal.Butterfly
-- ==== Proof.KI.Kept.lean ====
/-
  The argument array reaches the return as launched.

  No host stretch of @main writes `main_arg0` (each stretch's operations write only the buffers it lists) and no butterfly
  call changes it (a call changes its two output arrays only), so the last boundary's contents at `main_arg0` walk back,
  boundary by boundary, to the launch memory. With the run this is the frame claim; with the run read at the result
  buffer it is the kernel's half of the value claim.
-/
import proofs.«117748_j28784870817852_1_alg».proof.Proof.KI.Run
import proofs.«117748_j28784870817852_1_alg».proof.Proof.Gen.KernelIdeal.Regions

set_option maxRecDepth 16384

noncomputable section

namespace Cert.KernelIdeal.Butterfly

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- The last boundary's contents at the argument array are the launch memory's. -/
theorem W11_main_arg0 (c : Dev nD) : W11 m c main_arg0 = m ((c : Thread nD τ).loc main_arg0) :=
  (StableHlo.after_of_writes_sub hostOps5 _ hostOps5_writes (by decide : main_arg0 ∉ hostOps5_W)).trans <|
  (W10_of_ne m c main_arg0 (by decide) (by decide)).trans <|
  (StableHlo.after_of_writes_sub hostOps4 _ hostOps4_writes (by decide : main_arg0 ∉ hostOps4_W)).trans <|
  (W8_of_ne m c main_arg0 (by decide) (by decide)).trans <|
  (StableHlo.after_of_writes_sub hostOps3 _ hostOps3_writes (by decide : main_arg0 ∉ hostOps3_W)).trans <|
  (W6_of_ne m c main_arg0 (by decide) (by decide)).trans <|
  (StableHlo.after_of_writes_sub hostOps2 _ hostOps2_writes (by decide : main_arg0 ∉ hostOps2_W)).trans <|
  (W4_of_ne m c main_arg0 (by decide) (by decide)).trans <|
  (StableHlo.after_of_writes_sub hostOps1 _ hostOps1_writes (by decide : main_arg0 ∉ hostOps1_W)).trans <|
  (W2_of_ne m c main_arg0 (by decide) (by decide)).trans <|
  (StableHlo.after_of_writes_sub hostOps0 _ hostOps0_writes (by decide : main_arg0 ∉ hostOps0_W)).trans rfl

/-- THE FRAME: every weakly fair execution of @main terminates, nothing faulting, and the argument array ends as
    launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W11_main_arg0 m c)) (run m ρ)

/-- THE RUN READ AT THE RESULT: the result buffer ends at the last boundary's contents, the argument as launched. -/
theorem run_result (ρ : Dev nD → PrngReg) : θ_run defs (onTc (τ := τ) (main (F := F))) ⟨m, fun _ => 0, ρ⟩ (fun r => ∀ c : Dev nD,
      r.2.mem ((c.tc : Thread nD τ).loc main_v49) = W11 m c main_v49
      ∧ r.2.mem ((c.tc : Thread nD τ).loc main_arg0) = m ((c.tc : Thread nD τ).loc main_arg0)) :=
  (θ_run defs _ _).mono (fun r h c => ⟨h c _ (mem_uc main_v49 (by decide)),
    (h c _ (mem_uc main_arg0 (by decide))).trans (W11_main_arg0 m c)⟩) (run m ρ)

end Cert.KernelIdeal.Butterfly

end
-- ==== Proof.Haar.lean ====
/-
  The inverse Haar transform's one level, and its five levels, as functions of a signal read by position.

  A signal is read as a total function of the natural numbers (its entries at the positions below its length, zero
  beyond). One level at half-length `h` rewrites the first `2 * h` positions: position `2 * i` becomes the scaled
  sum `(f i + f (i + h)) * sc` and position `2 * i + 1` the scaled difference `(f i - f (i + h)) * sc` of the two
  halves' entries `i` and `i + h`; every position from `2 * h` on keeps its entry. The scale `sc` is the one float
  word both programs multiply by. The transform applies the level at `h = 1048576`, then at twice that, and so on up
  to `h = 16777216`, half the signal's length.
-/
import Idealize.ShloMosaic.PureOps.Ideal
import Idealize.ShloMosaic.Lib.ValueIdx

noncomputable section

namespace Cert.Haar

open Idealize.ShloMosaic Idealize.ShloMosaic.ValueIdx

/-- The signal's length. -/
abbrev L : ℕ := 33554432

/-- The scale both programs multiply by: the float word of `1 / sqrt 2` rounded to single precision, read exactly. -/
def sc : Ideal .f32 := Ideal.ofBits .f32 0x3F3504F3#32

/-- One level at half-length `h`, on a signal read by position. -/
def lvl (h : ℕ) (f : ℕ → Ideal .f32) : ℕ → Ideal .f32 := fun i =>
  if i < 2 * h then
    (if i % 2 = 0 then (f (i / 2) + f (i / 2 + h)) * sc else (f (i / 2) - f (i / 2 + h)) * sc)
  else f i

/-- A flat array of `n` entries read by position: its entry below `n`, zero from `n` on. -/
def rd1 {n : ℕ} (x : (⟨1, ![n]⟩ : Shape).Idx → Ideal .f32) : ℕ → Ideal .f32 := fun i =>
  if hi : i < n then x (ix1 ⟨i, hi⟩) else 0

/-- A `[1, 1, n]` array read by position along its last axis. -/
def rd3 {n : ℕ} (x : (⟨3, ![1, 1, n]⟩ : Shape).Idx → Ideal .f32) : ℕ → Ideal .f32 := fun i =>
  if hi : i < n then x (ix3 0 0 ⟨i, hi⟩) else 0

theorem rd1_of_lt {n : ℕ} (x : (⟨1, ![n]⟩ : Shape).Idx → Ideal .f32) {i : ℕ} (hi : i < n) : rd1 x i = x (ix1 ⟨i, hi⟩) := dif_pos hi
theorem rd1_of_le {n : ℕ} (x : (⟨1, ![n]⟩ : Shape).Idx → Ideal .f32) {i : ℕ} (hi : n ≤ i) : rd1 x i = 0 := dif_neg (Nat.not_lt.mpr hi)
theorem rd3_of_lt {n : ℕ} (x : (⟨3, ![1, 1, n]⟩ : Shape).Idx → Ideal .f32) {i : ℕ} (hi : i < n) : rd3 x i = x (ix3 0 0 ⟨i, hi⟩) := dif_pos hi
theorem rd3_of_le {n : ℕ} (x : (⟨3, ![1, 1, n]⟩ : Shape).Idx → Ideal .f32) {i : ℕ} (hi : n ≤ i) : rd3 x i = 0 := dif_neg (Nat.not_lt.mpr hi)

/-- Two `[1, 1, n]` arrays that read alike by position are equal. -/
theorem ext3 {n : ℕ} {x y : (⟨3, ![1, 1, n]⟩ : Shape).Idx → Ideal .f32} (h : rd3 x = rd3 y) : x = y := by
  funext j
  have hj : j = ix3 0 0 (j 2) := by
    funext d
    match d with
    | ⟨0, _⟩ => exact Fin.ext (by have := (j 0).isLt; change (j 0).val < 1 at this; change (j 0).val = 0; omega)
    | ⟨1, _⟩ => exact Fin.ext (by have := (j 1).isLt; change (j 1).val < 1 at this; change (j 1).val = 0; omega)
    | ⟨2, _⟩ => rfl
  have := congrFun h (j 2).val
  rw [rd3_of_lt x (j 2).isLt, rd3_of_lt y (j 2).isLt] at this
  rw [hj]; exact this

/-- An array of `R` rows of 128 read by row-major position: entry `(k / 128, k % 128)` below `R * 128`, zero beyond. -/
def rd2 {R : ℕ} (x : (⟨2, ![R, 128]⟩ : Shape).Idx → Ideal .f32) : ℕ → Ideal .f32 := fun k =>
  if hk : k < R * 128 then x (ix2 ⟨k / 128, Nat.div_lt_of_lt_mul (by rw [Nat.mul_comm]; exact hk)⟩ ⟨k % 128, Nat.mod_lt _ (by decide)⟩) else 0

theorem rd2_of_lt {R : ℕ} (x : (⟨2, ![R, 128]⟩ : Shape).Idx → Ideal .f32) {k : ℕ} (hk : k < R * 128) :
    rd2 x k = x (ix2 ⟨k / 128, Nat.div_lt_of_lt_mul (by rw [Nat.mul_comm]; exact hk)⟩ ⟨k % 128, Nat.mod_lt _ (by decide)⟩) := dif_pos hk
theorem rd2_of_le {R : ℕ} (x : (⟨2, ![R, 128]⟩ : Shape).Idx → Ideal .f32) {k : ℕ} (hk : R * 128 ≤ k) : rd2 x k = 0 := dif_neg (Nat.not_lt.mpr hk)

/-- A signal whose first `2 * h` positions interleave two half-signals `cf`, `df` — the scaled sums and differences of
    `xf`'s two halves — and whose later positions are `xf`'s is one level of `xf`. -/
theorem lvl_eq (h : ℕ) (xf cf df new : ℕ → Ideal .f32)
    (hc : ∀ k, k < h → cf k = (xf k + xf (k + h)) * sc) (hd : ∀ k, k < h → df k = (xf k - xf (k + h)) * sc)
    (hnew : ∀ i, new i = if i < 2 * h then (if i % 2 = 0 then cf (i / 2) else df (i / 2)) else xf i) :
    new = lvl h xf := by
  funext i
  rw [hnew i]; unfold lvl
  by_cases hi : i < 2 * h
  · rw [if_pos hi, if_pos hi]
    have hk : i / 2 < h := by omega
    by_cases he : i % 2 = 0
    · rw [if_pos he, if_pos he, hc _ hk]
    · rw [if_neg he, if_neg he, hd _ hk]
  · rw [if_neg hi, if_neg hi]

/-- The five levels, smallest first. -/
def all (f : ℕ → Ideal .f32) : ℕ → Ideal .f32 :=
  lvl 16777216 (lvl 8388608 (lvl 4194304 (lvl 2097152 (lvl 1048576 f))))

end Cert.Haar

end
-- ==== Proof.LibInterleave.lean ====
/-
  Arrays re-read in another shape, two vectors interleaved, and a vector whose head is replaced, read at an index.

  An array of R rows of C entries and the vector of its R * C entries in row-major order hold the same entries: position
  r * C + c of the vector is entry (r, c) of the array. A [1, 1, n] array and the vector of its n entries likewise. A
  vector [h] laid out as a column [h, 1] keeps its entries. Two vectors c, d of h entries, each laid out as a column, the
  columns put side by side and the [h, 2] array re-read as a vector of 2 * h entries, are interleaved: position 2 * k
  holds c k and position 2 * k + 1 holds d k. A vector y of m entries followed by the entries of a vector x of m + r
  entries from position m on is x with its first m entries replaced by y.
-/
import Idealize.ShloMosaic.Lib.ValueIdx
import Idealize.ShloMosaic.Lib.Pipeline.Value

namespace Idealize.ShloMosaic.Interleave

open Idealize.ShloMosaic Idealize.ShloMosaic.ValueIdx

variable {α : Type}

/-! ## One array, two shapes -/

/-- An array of `R` rows of `C` re-read as a vector: position `k = r * C + c` is entry `(r, c)`. -/
theorem shapeCast_rows_vec_apply {R C n : ℕ} (x : (⟨2, ![R, C]⟩ : Shape).Idx → α)
    (h : (⟨2, ![R, C]⟩ : Shape).ShapeCasts ⟨1, ![n]⟩) (k : Fin n) (r : Fin R) (c : Fin C)
    (hk : r.val * C + c.val = k.val) :
    shapeCast ⟨1, ![n]⟩ x h (ix1 k) = x (ix2 r c) :=
  shapeCast_apply x h (ix1 k) (ix2 r c) (by rw [Shape.rowMajor_val_two, Shape.rowMajor_val_one]; exact hk)

/-- A vector re-read as `R` rows of `C`: entry `(r, c)` is position `k = r * C + c`. -/
theorem shapeCast_vec_rows_apply {R C n : ℕ} (x : (⟨1, ![n]⟩ : Shape).Idx → α)
    (h : (⟨1, ![n]⟩ : Shape).ShapeCasts ⟨2, ![R, C]⟩) (r : Fin R) (c : Fin C) (k : Fin n)
    (hk : k.val = r.val * C + c.val) :
    shapeCast ⟨2, ![R, C]⟩ x h (ix2 r c) = x (ix1 k) :=
  shapeCast_apply x h (ix2 r c) (ix1 k) (by rw [Shape.rowMajor_val_two, Shape.rowMajor_val_one]; exact hk)

/-- A `[1, 1, n]` array re-read as a vector: position `k` is entry `(0, 0, k)`. -/
theorem shapeCast_11n_vec_apply {n m : ℕ} (x : (⟨3, ![1, 1, n]⟩ : Shape).Idx → α)
    (h : (⟨3, ![1, 1, n]⟩ : Shape).ShapeCasts ⟨1, ![m]⟩) (k : Fin m) (k' : Fin n) (hk : k'.val = k.val) :
    shapeCast ⟨1, ![m]⟩ x h (ix1 k) = x (ix3 (0 : Fin 1) (0 : Fin 1) k') :=
  shapeCast_apply x h (ix1 k) (ix3 (0 : Fin 1) (0 : Fin 1) k')
    (by rw [Shape.rowMajor_val_three, Shape.rowMajor_val_one]; show (0 * 1 + 0) * n + k'.val = k.val; omega)

/-- A vector re-read as a `[1, 1, n]` array: entry `(0, 0, k')` is position `k'`. -/
theorem shapeCast_vec_11n_apply {n m : ℕ} (x : (⟨1, ![m]⟩ : Shape).Idx → α)
    (h : (⟨1, ![m]⟩ : Shape).ShapeCasts ⟨3, ![1, 1, n]⟩) (k' : Fin n) (k : Fin m) (hk : k.val = k'.val) :
    shapeCast ⟨3, ![1, 1, n]⟩ x h (ix3 (0 : Fin 1) (0 : Fin 1) k') = x (ix1 k) :=
  shapeCast_apply x h (ix3 (0 : Fin 1) (0 : Fin 1) k') (ix1 k)
    (by rw [Shape.rowMajor_val_three, Shape.rowMajor_val_one]; show k.val = (0 * 1 + 0) * n + k'.val; omega)

/-! ## A vector as a column -/

/-- A vector `[h]` laid out as a column `[h, 1]` keeps its entries. -/
theorem broadcastInDim_col_apply {h : ℕ} (hb : (⟨1, ![h]⟩ : Shape).BroadcastsInDim ⟨2, ![h, 1]⟩ ![0])
    (v : (⟨1, ![h]⟩ : Shape).Idx → α) (p : Fin h) (u : Fin 1) :
    broadcastInDim ⟨2, ![h, 1]⟩ ![0] hb v (ix2 p u) = v (ix1 p) :=
  broadcastInDim_apply ![0] hb v (ix2 p u) (ix1 p) (fun a => by
    match a with
    | ⟨0, _⟩ =>
      show p.val = if h = 1 then 0 else p.val
      have := p.isLt
      split <;> omega)

/-! ## Two vectors interleaved -/

/-- Two vectors `c`, `d` of `h` entries, each laid out as a column, the columns side by side, the `[h, 2]` array re-read
    as a vector of `m = 2 * h` entries: position `i` holds `c (i / 2)` when `i` is even and `d (i / 2)` when it is odd. -/
theorem interleave_apply {h m : ℕ}
    (hb : (⟨1, ![h]⟩ : Shape).BroadcastsInDim ⟨2, ![h, 1]⟩ ![0])
    (hc : Shape.Concatenates [(⟨2, ![h, 1]⟩ : Shape), ⟨2, ![h, 1]⟩] ⟨2, ![h, 2]⟩ 1)
    (hs : (⟨2, ![h, 2]⟩ : Shape).ShapeCasts ⟨1, ![m]⟩)
    (c d : (⟨1, ![h]⟩ : Shape).Idx → α) (i : Fin m) (p : Fin h) (hp : p.val = i.val / 2) :
    shapeCast ⟨1, ![m]⟩ (concatenate ⟨2, ![h, 2]⟩ 1
        [⟨⟨2, ![h, 1]⟩, broadcastInDim ⟨2, ![h, 1]⟩ ![0] hb c⟩, ⟨⟨2, ![h, 1]⟩, broadcastInDim ⟨2, ![h, 1]⟩ ![0] hb d⟩] hc) hs (ix1 i)
      = if i.val % 2 = 0 then c (ix1 p) else d (ix1 p) := by
  by_cases he : i.val % 2 = 0
  · rw [if_pos he]
    refine (shapeCast_rows_vec_apply _ hs i p (0 : Fin 2) (by show p.val * 2 + 0 = i.val; omega)).trans ?_
    refine (concatenate_pair_apply_left (t := ⟨2, ![h, 2]⟩) (s₁ := ⟨2, ![h, 1]⟩) (s₂ := ⟨2, ![h, 1]⟩) 1 _ _ hc
      (ix2 p (0 : Fin 2)) rfl (ix2 p (0 : Fin 1)) (fun b => by match b with | ⟨0, _⟩ => rfl | ⟨1, _⟩ => rfl)).trans ?_
    exact broadcastInDim_col_apply hb c p 0
  · rw [if_neg he]
    refine (shapeCast_rows_vec_apply _ hs i p (1 : Fin 2) (by show p.val * 2 + 1 = i.val; omega)).trans ?_
    refine (concatenate_pair_apply_right (t := ⟨2, ![h, 2]⟩) (s₁ := ⟨2, ![h, 1]⟩) (s₂ := ⟨2, ![h, 1]⟩) 1 _ _ hc
      (ix2 p (1 : Fin 2)) rfl rfl (ix2 p (0 : Fin 1))
      (fun b hb => by match b with | ⟨0, _⟩ => rfl | ⟨1, _⟩ => exact absurd rfl hb) rfl).trans ?_
    exact broadcastInDim_col_apply hb d p 0

/-! ## A vector whose head is replaced -/

/-- A vector `y` of `m` entries followed by the entries of `x`, a vector of `L = m + r` entries, from position `m` on:
    below `m` it is `y`, from `m` on it is `x`. -/
theorem head_replaced_apply {m r L : ℕ} (hL : L = m + r)
    (hsl : (⟨1, ![L]⟩ : Shape).Slices ![m] ⟨1, ![r]⟩)
    (hcc : Shape.Concatenates [(⟨1, ![m]⟩ : Shape), ⟨1, ![r]⟩] ⟨1, ![L]⟩ 0)
    (y : (⟨1, ![m]⟩ : Shape).Idx → α) (x : (⟨1, ![L]⟩ : Shape).Idx → α) (i : Fin L) :
    concatenate ⟨1, ![L]⟩ 0 [⟨⟨1, ![m]⟩, y⟩, ⟨⟨1, ![r]⟩, extractStridedSlice ⟨1, ![r]⟩ ![m] x hsl⟩] hcc (ix1 i)
      = if hi : i.val < m then y (ix1 ⟨i.val, hi⟩) else x (ix1 i) := by
  by_cases hi : i.val < m
  · rw [dif_pos hi]
    exact concatenate_pair_apply_left (t := ⟨1, ![L]⟩) (s₁ := ⟨1, ![m]⟩) (s₂ := ⟨1, ![r]⟩) 0 y _ hcc (ix1 i) rfl
      (ix1 ⟨i.val, hi⟩) (fun b => by match b with | ⟨0, _⟩ => rfl)
  · rw [dif_neg hi]
    have hq : i.val - m < r := by have := i.isLt; omega
    refine (concatenate_pair_apply_right (t := ⟨1, ![L]⟩) (s₁ := ⟨1, ![m]⟩) (s₂ := ⟨1, ![r]⟩) 0 y _ hcc (ix1 i) rfl rfl
      (ix1 ⟨i.val - m, hq⟩) (fun b hb => by match b with | ⟨0, _⟩ => exact absurd rfl hb)
      (by show (i.val - m) + m = i.val; omega)).trans ?_
    exact extractStridedSlice_apply ![m] x hsl (ix1 ⟨i.val - m, hq⟩) (ix1 i)
      (fun a => by match a with | ⟨0, _⟩ => show i.val = m + (i.val - m); omega)

end Idealize.ShloMosaic.Interleave
-- ==== Proof.KI.HostLevels.lean ====
/-
  The host stretches between the five calls, read by position.

  Between two calls the program only re-lays data. A call leaves two arrays of R rows of 128, the scaled sums and the
  scaled differences of one level, h = R * 128 entries each. The stretch after it re-reads each as a vector of h
  entries, lays each out as a column, puts the two columns side by side and re-reads the [h, 2] array as a vector of
  2 * h entries: position 2 * k now holds sum k and position 2 * k + 1 holds difference k. This interleaved vector
  replaces the first 2 * h entries of the signal of L = 33554432 entries (the signal's entries from 2 * h on are cut out
  and put behind it), and the new signal is re-read as 262144 rows of 128 for the next call. Before the first call the
  [1, 1, L] input is re-read as a vector and as rows; after the last call the interleave is the whole signal and is
  re-read as a [1, 1, L] array.

  Each stretch is read at an arbitrary valuation of the buffers it starts from: its result buffers are the operations'
  composed term over those buffers, and that term is read position by position through the readers of the signal
  (a vector, rows of 128, a [1, 1, L] array, each by position, zero beyond its length).
-/
import proofs.«117748_j28784870817852_1_alg».proof.Proof.Gen.KernelIdeal.Launch
import proofs.«117748_j28784870817852_1_alg».proof.Proof.Haar
import Idealize.ShloMosaic.Lib.StableHlo.Run
import Idealize.ShloMosaic.Lib.ValueIdx
import Idealize.ShloMosaic.Lib.Pipeline.Value
import Idealize.ShloMosaic.Lib.ValueLayout
import proofs.«117748_j28784870817852_1_alg».proof.Proof.LibInterleave

noncomputable section

namespace Cert.KernelIdeal.HostLevels

open Cert.KernelIdeal Cert.KernelIdeal.Gen Cert.Haar Idealize.ShloMosaic Idealize.ShloMosaic.TcCoe Idealize.ShloMosaic.ValueIdx
open Idealize.ShloMosaic.Interleave

/-! ## The readers through a change of shape -/

/-- An array of `R` rows of 128 re-read as a vector reads, by position, as the array does by row-major position. -/
theorem rd1_rows {R n : ℕ} (hn : n = R * 128) (x : (⟨2, ![R, 128]⟩ : Shape).Idx → Ideal .f32)
    (h : (⟨2, ![R, 128]⟩ : Shape).ShapeCasts ⟨1, ![n]⟩) : rd1 (shapeCast ⟨1, ![n]⟩ x h) = rd2 x := by
  funext k
  by_cases hk : k < n
  · rw [rd1_of_lt _ hk, rd2_of_lt x (show k < R * 128 by omega)]
    exact shapeCast_rows_vec_apply x h ⟨k, hk⟩ _ _ (by show k / 128 * 128 + k % 128 = k; omega)
  · rw [rd1_of_le _ (show n ≤ k by omega), rd2_of_le x (show R * 128 ≤ k by omega)]

/-- A vector re-read as `R` rows of 128 reads, by row-major position, as the vector does by position. -/
theorem rd2_vec {R n : ℕ} (hn : n = R * 128) (x : (⟨1, ![n]⟩ : Shape).Idx → Ideal .f32)
    (h : (⟨1, ![n]⟩ : Shape).ShapeCasts ⟨2, ![R, 128]⟩) : rd2 (shapeCast ⟨2, ![R, 128]⟩ x h) = rd1 x := by
  funext k
  by_cases hk : k < n
  · rw [rd2_of_lt _ (show k < R * 128 by omega), rd1_of_lt x hk]
    exact shapeCast_vec_rows_apply x h _ _ ⟨k, hk⟩ (by show k = k / 128 * 128 + k % 128; omega)
  · rw [rd2_of_le _ (show R * 128 ≤ k by omega), rd1_of_le x (show n ≤ k by omega)]

/-- A `[1, 1, n]` array re-read as a vector reads by position as the array does. -/
theorem rd1_11n {n : ℕ} (x : (⟨3, ![1, 1, n]⟩ : Shape).Idx → Ideal .f32)
    (h : (⟨3, ![1, 1, n]⟩ : Shape).ShapeCasts ⟨1, ![n]⟩) : rd1 (shapeCast ⟨1, ![n]⟩ x h) = rd3 x := by
  funext k
  by_cases hk : k < n
  · rw [rd1_of_lt _ hk, rd3_of_lt x hk]
    exact shapeCast_11n_vec_apply x h ⟨k, hk⟩ ⟨k, hk⟩ rfl
  · rw [rd1_of_le _ (show n ≤ k by omega), rd3_of_le x (show n ≤ k by omega)]

/-- A vector re-read as a `[1, 1, n]` array reads by position as the vector does. -/
theorem rd3_vec {n : ℕ} (x : (⟨1, ![n]⟩ : Shape).Idx → Ideal .f32)
    (h : (⟨1, ![n]⟩ : Shape).ShapeCasts ⟨3, ![1, 1, n]⟩) : rd3 (shapeCast ⟨3, ![1, 1, n]⟩ x h) = rd1 x := by
  funext k
  by_cases hk : k < n
  · rw [rd3_of_lt _ hk, rd1_of_lt x hk]
    exact shapeCast_vec_11n_apply x h ⟨k, hk⟩ ⟨k, hk⟩ rfl
  · rw [rd3_of_le _ (show n ≤ k by omega), rd1_of_le x (show n ≤ k by omega)]

/-! ## The interleave and the replaced head, by position -/

/-- Two vectors of `h` entries interleaved into one of `m = 2 * h`: even positions read the first, odd positions the
    second, each at half the position; nothing from `2 * h` on. -/
theorem rd1_interleave {h m : ℕ} (hm : m = 2 * h)
    (hb : (⟨1, ![h]⟩ : Shape).BroadcastsInDim ⟨2, ![h, 1]⟩ ![0])
    (hc : Shape.Concatenates [(⟨2, ![h, 1]⟩ : Shape), ⟨2, ![h, 1]⟩] ⟨2, ![h, 2]⟩ 1)
    (hs : (⟨2, ![h, 2]⟩ : Shape).ShapeCasts ⟨1, ![m]⟩)
    (c d : (⟨1, ![h]⟩ : Shape).Idx → Ideal .f32) (i : ℕ) :
    rd1 (shapeCast ⟨1, ![m]⟩ (concatenate ⟨2, ![h, 2]⟩ 1
        [⟨⟨2, ![h, 1]⟩, broadcastInDim ⟨2, ![h, 1]⟩ ![0] hb c⟩, ⟨⟨2, ![h, 1]⟩, broadcastInDim ⟨2, ![h, 1]⟩ ![0] hb d⟩] hc) hs) i
      = if i < 2 * h then (if i % 2 = 0 then rd1 c (i / 2) else rd1 d (i / 2)) else 0 := by
  by_cases hi : i < 2 * h
  · have hp : i / 2 < h := by omega
    rw [if_pos hi, rd1_of_lt _ (show i < m by omega), rd1_of_lt c hp, rd1_of_lt d hp]
    exact interleave_apply hb hc hs c d ⟨i, by omega⟩ ⟨i / 2, hp⟩ rfl
  · rw [if_neg hi, rd1_of_le _ (show m ≤ i by omega)]

/-- A vector `y` of `m` entries followed by `x`'s entries from `m` on reads `y` below `m` and `x` from `m` on. -/
theorem rd1_head_replaced {m r L : ℕ} (hL : L = m + r)
    (hsl : (⟨1, ![L]⟩ : Shape).Slices ![m] ⟨1, ![r]⟩)
    (hcc : Shape.Concatenates [(⟨1, ![m]⟩ : Shape), ⟨1, ![r]⟩] ⟨1, ![L]⟩ 0)
    (y : (⟨1, ![m]⟩ : Shape).Idx → Ideal .f32) (x : (⟨1, ![L]⟩ : Shape).Idx → Ideal .f32) (i : ℕ) :
    rd1 (concatenate ⟨1, ![L]⟩ 0 [⟨⟨1, ![m]⟩, y⟩, ⟨⟨1, ![r]⟩, extractStridedSlice ⟨1, ![r]⟩ ![m] x hsl⟩] hcc) i
      = if i < m then rd1 y i else rd1 x i := by
  by_cases hiL : i < L
  · rw [rd1_of_lt _ hiL, head_replaced_apply hL hsl hcc y x ⟨i, hiL⟩]
    by_cases hi : i < m
    · rw [dif_pos hi, if_pos hi, rd1_of_lt y hi]
    · rw [dif_neg hi, if_neg hi, rd1_of_lt x hiL]
  · rw [rd1_of_le _ (show L ≤ i by omega), if_neg (show ¬ i < m by omega), rd1_of_le x (show L ≤ i by omega)]

/-- One level's host stretch: two arrays of `R` rows of 128 (`h = R * 128` entries each) interleaved into the first
    `2 * h` positions of a signal of `L` entries, whose later positions are kept. -/
theorem rd1_level {R h m r L : ℕ} (hh : h = R * 128) (hm : m = 2 * h) (hL : L = m + r)
    (h1 : (⟨2, ![R, 128]⟩ : Shape).ShapeCasts ⟨1, ![h]⟩)
    (hb : (⟨1, ![h]⟩ : Shape).BroadcastsInDim ⟨2, ![h, 1]⟩ ![0])
    (hc : Shape.Concatenates [(⟨2, ![h, 1]⟩ : Shape), ⟨2, ![h, 1]⟩] ⟨2, ![h, 2]⟩ 1)
    (hs : (⟨2, ![h, 2]⟩ : Shape).ShapeCasts ⟨1, ![m]⟩)
    (hsl : (⟨1, ![L]⟩ : Shape).Slices ![m] ⟨1, ![r]⟩)
    (hcc : Shape.Concatenates [(⟨1, ![m]⟩ : Shape), ⟨1, ![r]⟩] ⟨1, ![L]⟩ 0)
    (c0 d0 : (⟨2, ![R, 128]⟩ : Shape).Idx → Ideal .f32) (x : (⟨1, ![L]⟩ : Shape).Idx → Ideal .f32) (i : ℕ) :
    rd1 (concatenate ⟨1, ![L]⟩ 0 [⟨⟨1, ![m]⟩, shapeCast ⟨1, ![m]⟩ (concatenate ⟨2, ![h, 2]⟩ 1
        [⟨⟨2, ![h, 1]⟩, broadcastInDim ⟨2, ![h, 1]⟩ ![0] hb (shapeCast ⟨1, ![h]⟩ c0 h1)⟩,
         ⟨⟨2, ![h, 1]⟩, broadcastInDim ⟨2, ![h, 1]⟩ ![0] hb (shapeCast ⟨1, ![h]⟩ d0 h1)⟩] hc) hs⟩,
        ⟨⟨1, ![r]⟩, extractStridedSlice ⟨1, ![r]⟩ ![m] x hsl⟩] hcc) i
      = if i < 2 * h then (if i % 2 = 0 then rd2 c0 (i / 2) else rd2 d0 (i / 2)) else rd1 x i := by
  rw [rd1_head_replaced hL hsl hcc, rd1_interleave hm hb hc hs, rd1_rows hh c0 h1, rd1_rows hh d0 h1]
  by_cases hi : i < 2 * h
  · rw [if_pos (show i < m by omega), if_pos hi, if_pos hi]
  · rw [if_neg (show ¬ i < m by omega), if_neg hi]

/-- The last level's host stretch: the interleave alone, of the whole length. -/
theorem rd1_last {R h m : ℕ} (hh : h = R * 128) (hm : m = 2 * h)
    (h1 : (⟨2, ![R, 128]⟩ : Shape).ShapeCasts ⟨1, ![h]⟩)
    (hb : (⟨1, ![h]⟩ : Shape).BroadcastsInDim ⟨2, ![h, 1]⟩ ![0])
    (hc : Shape.Concatenates [(⟨2, ![h, 1]⟩ : Shape), ⟨2, ![h, 1]⟩] ⟨2, ![h, 2]⟩ 1)
    (hs : (⟨2, ![h, 2]⟩ : Shape).ShapeCasts ⟨1, ![m]⟩)
    (c0 d0 : (⟨2, ![R, 128]⟩ : Shape).Idx → Ideal .f32) (i : ℕ) :
    rd1 (shapeCast ⟨1, ![m]⟩ (concatenate ⟨2, ![h, 2]⟩ 1
        [⟨⟨2, ![h, 1]⟩, broadcastInDim ⟨2, ![h, 1]⟩ ![0] hb (shapeCast ⟨1, ![h]⟩ c0 h1)⟩,
         ⟨⟨2, ![h, 1]⟩, broadcastInDim ⟨2, ![h, 1]⟩ ![0] hb (shapeCast ⟨1, ![h]⟩ d0 h1)⟩] hc) hs) i
      = if i < 2 * h then (if i % 2 = 0 then rd2 c0 (i / 2) else rd2 d0 (i / 2)) else 0 := by
  rw [rd1_interleave hm hb hc hs, rd1_rows hh c0 h1, rd1_rows hh d0 h1]

/-! ## The six stretches -/

/-- Before the first call: the signal as a vector, and the vector as rows of 128. -/
theorem host0 (W : Valuation τ sig (Elt Ideal)) :
    rd1 (StableHlo.after (hostOps0 (F := Ideal)) W (Proc.devRef .tc main_v0)) = rd3 (W (Proc.devRef .tc main_arg0))
    ∧ rd2 (StableHlo.after (hostOps0 (F := Ideal)) W (Proc.devRef .tc main_v1))
        = rd1 (StableHlo.after (hostOps0 (F := Ideal)) W (Proc.devRef .tc main_v0)) := by
  have e0 : (StableHlo.after (hostOps0 (F := Ideal)) W (Proc.devRef .tc main_v0) : S33554432.Idx → Ideal .f32)
      = shapeCast S33554432 (W (Proc.devRef .tc main_arg0)) shapeCasts_S1x1x33554432_S33554432 := by
    after_results; rfl
  have e1 : (StableHlo.after (hostOps0 (F := Ideal)) W (Proc.devRef .tc main_v1) : S262144x128.Idx → Ideal .f32)
      = shapeCast S262144x128 (StableHlo.after (hostOps0 (F := Ideal)) W (Proc.devRef .tc main_v0) : S33554432.Idx → Ideal .f32)
          shapeCasts_S33554432_S262144x128 := by
    rw [e0]; after_results; rfl
  refine ⟨?_, ?_⟩
  · rw [e0]; exact rd1_11n _ _
  · rw [e1]; exact rd2_vec (R := 262144) (n := 33554432) rfl _ _

/-- Between the first and the second call: the two halves of half-length 1048576 interleaved into the signal's head. -/
theorem host1 (W : Valuation τ sig (Elt Ideal)) :
    (∀ i : ℕ, rd1 (StableHlo.after (hostOps1 (F := Ideal)) W (Proc.devRef .tc main_v10)) i
        = if i < 2 * 1048576 then
            (if i % 2 = 0 then rd2 (W (Proc.devRef .tc main_v2_0)) (i / 2) else rd2 (W (Proc.devRef .tc main_v2_1)) (i / 2))
          else rd1 (W (Proc.devRef .tc main_v0)) i)
    ∧ rd2 (StableHlo.after (hostOps1 (F := Ideal)) W (Proc.devRef .tc main_v11))
        = rd1 (StableHlo.after (hostOps1 (F := Ideal)) W (Proc.devRef .tc main_v10)) := by
  have e10 : (StableHlo.after (hostOps1 (F := Ideal)) W (Proc.devRef .tc main_v10) : S33554432.Idx → Ideal .f32)
      = concatenate S33554432 0 [⟨S2097152, shapeCast S2097152 (concatenate S1048576x2 1
          [⟨S1048576x1, broadcastInDim S1048576x1 ![0] bcast_S1048576_S1048576x1_0
              (shapeCast S1048576 (W (Proc.devRef .tc main_v2_0)) shapeCasts_S8192x128_S1048576)⟩,
           ⟨S1048576x1, broadcastInDim S1048576x1 ![0] bcast_S1048576_S1048576x1_0
              (shapeCast S1048576 (W (Proc.devRef .tc main_v2_1)) shapeCasts_S8192x128_S1048576)⟩]
          concatenates_S1048576x1_S1048576x1_S1048576x2_d1) shapeCasts_S1048576x2_S2097152⟩,
        ⟨S31457280, extractStridedSlice S31457280 ![2097152] (W (Proc.devRef .tc main_v0)) slices_S33554432_S31457280_2097152⟩]
        concatenates_S2097152_S31457280_S33554432_d0 := by
    after_results; rfl
  have e11 : (StableHlo.after (hostOps1 (F := Ideal)) W (Proc.devRef .tc main_v11) : S262144x128.Idx → Ideal .f32)
      = shapeCast S262144x128 (StableHlo.after (hostOps1 (F := Ideal)) W (Proc.devRef .tc main_v10) : S33554432.Idx → Ideal .f32)
          shapeCasts_S33554432_S262144x128 := by
    rw [e10]; after_results; rfl
  refine ⟨fun i => ?_, ?_⟩
  · rw [e10]
    exact rd1_level (R := 8192) (h := 1048576) (m := 2097152) (r := 31457280) (L := 33554432) rfl rfl rfl _ _ _ _ _ _ _ _ _ i
  · rw [e11]; exact rd2_vec (R := 262144) (n := 33554432) rfl _ _

/-- Between the second and the third call: the two halves of half-length 2097152 interleaved into the signal's head. -/
theorem host2 (W : Valuation τ sig (Elt Ideal)) :
    (∀ i : ℕ, rd1 (StableHlo.after (hostOps2 (F := Ideal)) W (Proc.devRef .tc main_v20)) i
        = if i < 2 * 2097152 then
            (if i % 2 = 0 then rd2 (W (Proc.devRef .tc main_v12_0)) (i / 2) else rd2 (W (Proc.devRef .tc main_v12_1)) (i / 2))
          else rd1 (W (Proc.devRef .tc main_v10)) i)
    ∧ rd2 (StableHlo.after (hostOps2 (F := Ideal)) W (Proc.devRef .tc main_v21))
        = rd1 (StableHlo.after (hostOps2 (F := Ideal)) W (Proc.devRef .tc main_v20)) := by
  have e10 : (StableHlo.after (hostOps2 (F := Ideal)) W (Proc.devRef .tc main_v20) : S33554432.Idx → Ideal .f32)
      = concatenate S33554432 0 [⟨S4194304, shapeCast S4194304 (concatenate S2097152x2 1
          [⟨S2097152x1, broadcastInDim S2097152x1 ![0] bcast_S2097152_S2097152x1_0
              (shapeCast S2097152 (W (Proc.devRef .tc main_v12_0)) shapeCasts_S16384x128_S2097152)⟩,
           ⟨S2097152x1, broadcastInDim S2097152x1 ![0] bcast_S2097152_S2097152x1_0
              (shapeCast S2097152 (W (Proc.devRef .tc main_v12_1)) shapeCasts_S16384x128_S2097152)⟩]
          concatenates_S2097152x1_S2097152x1_S2097152x2_d1) shapeCasts_S2097152x2_S4194304⟩,
        ⟨S29360128, extractStridedSlice S29360128 ![4194304] (W (Proc.devRef .tc main_v10)) slices_S33554432_S29360128_4194304⟩]
        concatenates_S4194304_S29360128_S33554432_d0 := by
    after_results; rfl
  have e11 : (StableHlo.after (hostOps2 (F := Ideal)) W (Proc.devRef .tc main_v21) : S262144x128.Idx → Ideal .f32)
      = shapeCast S262144x128 (StableHlo.after (hostOps2 (F := Ideal)) W (Proc.devRef .tc main_v20) : S33554432.Idx → Ideal .f32)
          shapeCasts_S33554432_S262144x128 := by
    rw [e10]; after_results; rfl
  refine ⟨fun i => ?_, ?_⟩
  · rw [e10]
    exact rd1_level (R := 16384) (h := 2097152) (m := 4194304) (r := 29360128) (L := 33554432) rfl rfl rfl _ _ _ _ _ _ _ _ _ i
  · rw [e11]; exact rd2_vec (R := 262144) (n := 33554432) rfl _ _

/-- Between the third and the fourth call: the two halves of half-length 4194304 interleaved into the signal's head. -/
theorem host3 (W : Valuation τ sig (Elt Ideal)) :
    (∀ i : ℕ, rd1 (StableHlo.after (hostOps3 (F := Ideal)) W (Proc.devRef .tc main_v30)) i
        = if i < 2 * 4194304 then
            (if i % 2 = 0 then rd2 (W (Proc.devRef .tc main_v22_0)) (i / 2) else rd2 (W (Proc.devRef .tc main_v22_1)) (i / 2))
          else rd1 (W (Proc.devRef .tc main_v20)) i)
    ∧ rd2 (StableHlo.after (hostOps3 (F := Ideal)) W (Proc.devRef .tc main_v31))
        = rd1 (StableHlo.after (hostOps3 (F := Ideal)) W (Proc.devRef .tc main_v30)) := by
  have e10 : (StableHlo.after (hostOps3 (F := Ideal)) W (Proc.devRef .tc main_v30) : S33554432.Idx → Ideal .f32)
      = concatenate S33554432 0 [⟨S8388608, shapeCast S8388608 (concatenate S4194304x2 1
          [⟨S4194304x1, broadcastInDim S4194304x1 ![0] bcast_S4194304_S4194304x1_0
              (shapeCast S4194304 (W (Proc.devRef .tc main_v22_0)) shapeCasts_S32768x128_S4194304)⟩,
           ⟨S4194304x1, broadcastInDim S4194304x1 ![0] bcast_S4194304_S4194304x1_0
              (shapeCast S4194304 (W (Proc.devRef .tc main_v22_1)) shapeCasts_S32768x128_S4194304)⟩]
          concatenates_S4194304x1_S4194304x1_S4194304x2_d1) shapeCasts_S4194304x2_S8388608⟩,
        ⟨S25165824, extractStridedSlice S25165824 ![8388608] (W (Proc.devRef .tc main_v20)) slices_S33554432_S25165824_8388608⟩]
        concatenates_S8388608_S25165824_S33554432_d0 := by
    after_results; rfl
  have e11 : (StableHlo.after (hostOps3 (F := Ideal)) W (Proc.devRef .tc main_v31) : S262144x128.Idx → Ideal .f32)
      = shapeCast S262144x128 (StableHlo.after (hostOps3 (F := Ideal)) W (Proc.devRef .tc main_v30) : S33554432.Idx → Ideal .f32)
          shapeCasts_S33554432_S262144x128 := by
    rw [e10]; after_results; rfl
  refine ⟨fun i => ?_, ?_⟩
  · rw [e10]
    exact rd1_level (R := 32768) (h := 4194304) (m := 8388608) (r := 25165824) (L := 33554432) rfl rfl rfl _ _ _ _ _ _ _ _ _ i
  · rw [e11]; exact rd2_vec (R := 262144) (n := 33554432) rfl _ _

/-- Between the fourth and the fifth call: the two halves of half-length 8388608 interleaved into the signal's head. -/
theorem host4 (W : Valuation τ sig (Elt Ideal)) :
    (∀ i : ℕ, rd1 (StableHlo.after (hostOps4 (F := Ideal)) W (Proc.devRef .tc main_v40)) i
        = if i < 2 * 8388608 then
            (if i % 2 = 0 then rd2 (W (Proc.devRef .tc main_v32_0)) (i / 2) else rd2 (W (Proc.devRef .tc main_v32_1)) (i / 2))
          else rd1 (W (Proc.devRef .tc main_v30)) i)
    ∧ rd2 (StableHlo.after (hostOps4 (F := Ideal)) W (Proc.devRef .tc main_v41))
        = rd1 (StableHlo.after (hostOps4 (F := Ideal)) W (Proc.devRef .tc main_v40)) := by
  have e10 : (StableHlo.after (hostOps4 (F := Ideal)) W (Proc.devRef .tc main_v40) : S33554432.Idx → Ideal .f32)
      = concatenate S33554432 0 [⟨S16777216, shapeCast S16777216 (concatenate S8388608x2 1
          [⟨S8388608x1, broadcastInDim S8388608x1 ![0] bcast_S8388608_S8388608x1_0
              (shapeCast S8388608 (W (Proc.devRef .tc main_v32_0)) shapeCasts_S65536x128_S8388608)⟩,
           ⟨S8388608x1, broadcastInDim S8388608x1 ![0] bcast_S8388608_S8388608x1_0
              (shapeCast S8388608 (W (Proc.devRef .tc main_v32_1)) shapeCasts_S65536x128_S8388608)⟩]
          concatenates_S8388608x1_S8388608x1_S8388608x2_d1) shapeCasts_S8388608x2_S16777216⟩,
        ⟨S16777216, extractStridedSlice S16777216 ![16777216] (W (Proc.devRef .tc main_v30)) slices_S33554432_S16777216_16777216⟩]
        concatenates_S16777216_S16777216_S33554432_d0 := by
    after_results; rfl
  have e11 : (StableHlo.after (hostOps4 (F := Ideal)) W (Proc.devRef .tc main_v41) : S262144x128.Idx → Ideal .f32)
      = shapeCast S262144x128 (StableHlo.after (hostOps4 (F := Ideal)) W (Proc.devRef .tc main_v40) : S33554432.Idx → Ideal .f32)
          shapeCasts_S33554432_S262144x128 := by
    rw [e10]; after_results; rfl
  refine ⟨fun i => ?_, ?_⟩
  · rw [e10]
    exact rd1_level (R := 65536) (h := 8388608) (m := 16777216) (r := 16777216) (L := 33554432) rfl rfl rfl _ _ _ _ _ _ _ _ _ i
  · rw [e11]; exact rd2_vec (R := 262144) (n := 33554432) rfl _ _

/-- After the fifth call: the two halves of half-length 16777216 interleaved into the whole signal, as a `[1, 1, L]` array. -/
theorem host5 (W : Valuation τ sig (Elt Ideal)) :
    ∀ i : ℕ, rd3 (StableHlo.after (hostOps5 (F := Ideal)) W (Proc.devRef .tc main_v49)) i
        = if i < 2 * 16777216 then
            (if i % 2 = 0 then rd2 (W (Proc.devRef .tc main_v42_0)) (i / 2) else rd2 (W (Proc.devRef .tc main_v42_1)) (i / 2))
          else 0 := by
  have e49 : (StableHlo.after (hostOps5 (F := Ideal)) W (Proc.devRef .tc main_v49) : S1x1x33554432.Idx → Ideal .f32)
      = shapeCast S1x1x33554432 (shapeCast S33554432 (concatenate S16777216x2 1
          [⟨S16777216x1, broadcastInDim S16777216x1 ![0] bcast_S16777216_S16777216x1_0
              (shapeCast S16777216 (W (Proc.devRef .tc main_v42_0)) shapeCasts_S131072x128_S16777216)⟩,
           ⟨S16777216x1, broadcastInDim S16777216x1 ![0] bcast_S16777216_S16777216x1_0
              (shapeCast S16777216 (W (Proc.devRef .tc main_v42_1)) shapeCasts_S131072x128_S16777216)⟩]
          concatenates_S16777216x1_S16777216x1_S16777216x2_d1) shapeCasts_S16777216x2_S33554432)
        shapeCasts_S33554432_S1x1x33554432 := by
    after_results; rfl
  intro i
  rw [e49, rd3_vec]
  exact rd1_last (R := 131072) (h := 16777216) (m := 33554432) rfl rfl _ _ _ _ _ _ i

end Cert.KernelIdeal.HostLevels

end
-- ==== Proof.KI.Value0.lean ====
/-
  Region 0's value: what this butterfly call leaves in its two output arrays, entry by entry.

  The call reads one array `x` of 262144 rows of 128 floats and writes two arrays of `out0_rows` rows each. Grid point `t`
  takes the block of 8192 rows at block row `t` of `x` and the block one whole output further down (block row
  `t +` the number of points), and stores their scaled sum and scaled difference as block `t` of the two outputs. So
  row `r` of the sum output is `(x[r] + x[r + out0_rows]) * sc` and row `r` of the difference output
  `(x[r] - x[r + out0_rows]) * sc`, lane by lane: the two functions `G0_2`, `G0_3` of the whole input.

  Proved here, at the ideal floats and for any contents `V` at the region's entry: each point writes back its block of
  `G0_2` / `G0_3` (the payloads read at an entry; each input block as rows of `x`; the index maps decided over the
  grid); every output row `r` lies in the block of point `r / 8192`; hence the arrays after the region are `G0_2` and
  `G0_3` of `x`; and read by row-major position, position `k` of an output pairs positions `k` and `k + 1048576` of
  `x` (`sum0`, `diff0`) — one whole output of rows is 1048576 positions, and the lane `k % 128` is kept.
-/
import proofs.«117748_j28784870817852_1_alg».proof.Proof.KI.Region0
import proofs.«117748_j28784870817852_1_alg».proof.Proof.Haar
import Idealize.ShloMosaic.Lib.Pipeline.Value
import Idealize.ShloMosaic.Lib.ValueIdx

set_option maxRecDepth 16384

noncomputable section

namespace Cert.KernelIdeal.Butterfly

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Haar Idealize.ShloMosaic.ValueIdx

variable (V : (c : Dev nD) → (b : Ref sig .tc) → Buf (Elt Ideal) ((c : Thread nD τ).loc b))

/-! ## Sizes -/

/-- The rows of each output array: the block's 8192 rows, once per grid point. -/
abbrev out0_rows : ℕ := 8192

/-- The outputs' shape (the shared input's is `S262144x128`). -/
abbrev out0_shape : Shape := ⟨2, ![out0_rows, 128]⟩

/-- The output's rows are the grid's blocks, and twice as many rows fit in the input. -/
theorem out0_rows_eq : out0_rows = 8192 * grid0.N := by decide +kernel
theorem out0_rows_le : 2 * out0_rows ≤ 262144 := by decide +kernel

theorem idx0_hz : (![0, 0] : Fin 2 → Nat) = fun _ => 0 := funext fun a => by fin_cases a <;> rfl

/-! ## The two outputs as functions of the whole input -/

/-- Entry `(r, l)` of the sum output: the input's entries `(r, l)` and `(r + out0_rows, l)` added and scaled. -/
def G0_2 (x : S262144x128.Idx → Ideal .f32) : out0_shape.Idx → Ideal .f32 := fun i =>
  (x (ix2 ⟨(i 0).val, by have := idx2_lt0 i; have := out0_rows_le; omega⟩ ⟨(i 1).val, idx2_lt1 i⟩)
    + x (ix2 ⟨(i 0).val + out0_rows, by have := idx2_lt0 i; have := out0_rows_le; omega⟩ ⟨(i 1).val, idx2_lt1 i⟩)) * sc

/-- Entry `(r, l)` of the difference output: the same two entries subtracted and scaled. -/
def G0_3 (x : S262144x128.Idx → Ideal .f32) : out0_shape.Idx → Ideal .f32 := fun i =>
  (x (ix2 ⟨(i 0).val, by have := idx2_lt0 i; have := out0_rows_le; omega⟩ ⟨(i 1).val, idx2_lt1 i⟩)
    - x (ix2 ⟨(i 0).val + out0_rows, by have := idx2_lt0 i; have := out0_rows_le; omega⟩ ⟨(i 1).val, idx2_lt1 i⟩)) * sc

/-! ## The index maps, decided over the grid -/

/-- At point `t` both outputs and the first input window are at block row `t`, the second input window one whole
    output further down, and every window at block column 0. -/
theorem idx0_facts : ∀ t : Fin cfg0.N,
    win0_0.index t (0 : Fin 2) = t.val ∧ win0_0.index t (1 : Fin 2) = 0
    ∧ win0_1.index t (0 : Fin 2) = t.val + grid0.N ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The body's payloads at an entry -/

/-- The sum payload at an entry: the two loaded blocks' entries added and scaled (the two shape casts keep the shape). -/
theorem k0_pay3_apply (a b : S8192x128.Idx → Ideal .f32) (y : S8192x128.Idx) :
    k0_pay3 (F := Ideal) a b y = (a y + b y) * sc := by
  unfold k0_pay3 k0_pay1 k0_pay2
  simp only [shapeCast_self]
  unfold sc
  rfl

/-- The difference payload at an entry. -/
theorem k0_pay4_apply (a b : S8192x128.Idx → Ideal .f32) (y : S8192x128.Idx) :
    k0_pay4 (F := Ideal) a b y = (a y - b y) * sc := by
  unfold k0_pay4 k0_pay1 k0_pay2
  simp only [shapeCast_self]
  unfold sc
  rfl

/-! ## The input windows' blocks as rows of the input -/

/-- Entry `y` of the first input window's block at point `t` is the input's entry in row `8192 t + y₀`, same lane. -/
theorem iblk0_0_apply (c : Dev nD) (t : Fin cfg0.N) (y : S8192x128.Idx) (k : S262144x128.Idx)
    (hrow : (k 0).val = t.val * 8192 + (y 0).val) (hlane : (k 1).val = (y 1).val) :
    (iblk0 V c 0 t : S8192x128.Idx → Ideal .f32) y = (V c main_v1 : S262144x128.Idx → Ideal .f32) k := by
  obtain ⟨eb, el, -⟩ := idx0_facts t
  unfold iblk0
  rw [View.read_apply]
  show V c main_v1 _ = V c main_v1 _
  congr 1
  funext a
  apply Fin.ext
  match a with
  | ⟨0, _⟩ => show win0_0.index t (0 : Fin 2) * 8192 + 1 * (y 0).val = (k 0).val; rw [eb, hrow]; omega
  | ⟨1, _⟩ => show win0_0.index t (1 : Fin 2) * 128 + 1 * (y 1).val = (k 1).val; rw [el, hlane]; omega

/-- Entry `y` of the second input window's block at point `t` is the input's entry one whole output further down. -/
theorem iblk0_1_apply (c : Dev nD) (t : Fin cfg0.N) (y : S8192x128.Idx) (k : S262144x128.Idx)
    (hrow : (k 0).val = t.val * 8192 + (y 0).val + out0_rows) (hlane : (k 1).val = (y 1).val) :
    (iblk0 V c 1 t : S8192x128.Idx → Ideal .f32) y = (V c main_v1 : S262144x128.Idx → Ideal .f32) k := by
  obtain ⟨-, -, eb, el, -⟩ := idx0_facts t
  have ho := out0_rows_eq
  unfold iblk0
  rw [View.read_apply]
  show V c main_v1 _ = V c main_v1 _
  congr 1
  funext a
  apply Fin.ext
  match a with
  | ⟨0, _⟩ => show win0_1.index t (0 : Fin 2) * 8192 + 1 * (y 0).val = (k 0).val; rw [eb, hrow]; omega
  | ⟨1, _⟩ => show win0_1.index t (1 : Fin 2) * 128 + 1 * (y 1).val = (k 1).val; rw [el, hlane]; omega

/-! ## What each point writes back is its block of the whole-array function -/

/-- Point `t` writes block `t` of `G0_2` of the input into the sum output. -/
theorem flushed_eq0_2 (c : Dev nD) (t : Fin cfg0.N) :
    (dat0 V c).flushed 2 t = ((cfg0.win 2).blk t).view.read (Elt Ideal) (G0_2 (V c main_v1)) := by
  show (cfg0.win 2).cut (grid0.coords t) ((dat0 V c).after 2 t) = _
  rw [after0_2]
  unfold out0_2
  rw [View.canon_unit_zero idx0_hz]
  simp only [View.ld_unit_zero (S := S8192x128) idx0_hz]
  obtain ⟨-, -, -, -, eb, el, -⟩ := idx0_facts t
  funext j
  rw [View.read_apply]
  refine (k0_pay3_apply (iblk0 V c 0 t) (iblk0 V c 1 t) _).trans ?_
  have hrow : ((((cfg0.win 2).blk t).view.emb j : out0_shape.Idx) 0).val = t.val * 8192 + (j 0).val := by
    show win0_2.index t (0 : Fin 2) * 8192 + 1 * (j 0).val = _; rw [eb]; omega
  have hlane : ((((cfg0.win 2).blk t).view.emb j : out0_shape.Idx) 1).val = (j 1).val := by
    show win0_2.index t (1 : Fin 2) * 128 + 1 * (j 1).val = _; rw [el]; omega
  unfold G0_2
  exact congrArg (· * sc) (congrArg₂ (· + ·) (iblk0_0_apply V c t _ _ hrow hlane)
    (iblk0_1_apply V c t _ _ (congrArg (· + out0_rows) hrow) hlane))

/-- Point `t` writes block `t` of `G0_3` of the input into the difference output. -/
theorem flushed_eq0_3 (c : Dev nD) (t : Fin cfg0.N) :
    (dat0 V c).flushed 3 t = ((cfg0.win 3).blk t).view.read (Elt Ideal) (G0_3 (V c main_v1)) := by
  show (cfg0.win 3).cut (grid0.coords t) ((dat0 V c).after 3 t) = _
  rw [after0_3]
  unfold out0_3
  rw [View.canon_unit_zero idx0_hz]
  simp only [View.ld_unit_zero (S := S8192x128) idx0_hz]
  obtain ⟨-, -, -, -, -, -, eb, el⟩ := idx0_facts t
  funext j
  rw [View.read_apply]
  refine (k0_pay4_apply (iblk0 V c 0 t) (iblk0 V c 1 t) _).trans ?_
  have hrow : ((((cfg0.win 3).blk t).view.emb j : out0_shape.Idx) 0).val = t.val * 8192 + (j 0).val := by
    show win0_3.index t (0 : Fin 2) * 8192 + 1 * (j 0).val = _; rw [eb]; omega
  have hlane : ((((cfg0.win 3).blk t).view.emb j : out0_shape.Idx) 1).val = (j 1).val := by
    show win0_3.index t (1 : Fin 2) * 128 + 1 * (j 1).val = _; rw [el]; omega
  unfold G0_3
  exact congrArg (· * sc) (congrArg₂ (· - ·) (iblk0_0_apply V c t _ _ hrow hlane)
    (iblk0_1_apply V c t _ _ (congrArg (· + out0_rows) hrow) hlane))

/-! ## Every entry of an output lies in one point's block -/

/-- An entry of the sum output is in point `t`'s block iff each coordinate is in the block's range on its axis. -/
theorem cover0_2_iff (t : Fin cfg0.N) (i : out0_shape.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v2_0).slice (win0_2.rect t)).set ↔ _
  rw [View.set_slice_whole, Rect.mem_set_unit]
  exact Iff.rfl

/-- The same for the difference output. -/
theorem cover0_3_iff (t : Fin cfg0.N) (i : out0_shape.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v2_1).slice (win0_3.rect t)).set ↔ _
  rw [View.set_slice_whole, Rect.mem_set_unit]
  exact Iff.rfl

/-- Row `r` of the sum output lies in the block of point `r / 8192`, which is written back. -/
theorem cover0_2 (i : out0_shape.Idx) : ∃ t : Fin cfg0.N, (cfg0.win 2).flush t = true ∧ i ∈ ((cfg0.win 2).blk t).view.set := by
  have hr : (i 0).val < out0_rows := idx2_lt0 i
  have hl : (i 1).val < 128 := idx2_lt1 i
  have ho := out0_rows_eq
  have ht : (i 0).val / 8192 < grid0.N := by omega
  refine ⟨⟨(i 0).val / 8192, ht⟩, flush0_2 _, ?_⟩
  obtain ⟨-, -, -, -, eb, el, -⟩ := idx0_facts ⟨(i 0).val / 8192, ht⟩
  have eb' : win0_2.index ⟨(i 0).val / 8192, ht⟩ (0 : Fin 2) = (i 0).val / 8192 := eb
  rw [cover0_2_iff]
  intro a
  match a with
  | ⟨0, _⟩ =>
    show win0_2.index ⟨(i 0).val / 8192, ht⟩ (0 : Fin 2) * 8192 ≤ (i 0).val
      ∧ (i 0).val < win0_2.index ⟨(i 0).val / 8192, ht⟩ (0 : Fin 2) * 8192 + 8192
    rw [eb']; omega
  | ⟨1, _⟩ =>
    show win0_2.index ⟨(i 0).val / 8192, ht⟩ (1 : Fin 2) * 128 ≤ (i 1).val
      ∧ (i 1).val < win0_2.index ⟨(i 0).val / 8192, ht⟩ (1 : Fin 2) * 128 + 128
    rw [el]; omega

/-- The same for the difference output. -/
theorem cover0_3 (i : out0_shape.Idx) : ∃ t : Fin cfg0.N, (cfg0.win 3).flush t = true ∧ i ∈ ((cfg0.win 3).blk t).view.set := by
  have hr : (i 0).val < out0_rows := idx2_lt0 i
  have hl : (i 1).val < 128 := idx2_lt1 i
  have ho := out0_rows_eq
  have ht : (i 0).val / 8192 < grid0.N := by omega
  refine ⟨⟨(i 0).val / 8192, ht⟩, flush0_3 _, ?_⟩
  obtain ⟨-, -, -, -, -, -, eb, el⟩ := idx0_facts ⟨(i 0).val / 8192, ht⟩
  have eb' : win0_3.index ⟨(i 0).val / 8192, ht⟩ (0 : Fin 2) = (i 0).val / 8192 := eb
  rw [cover0_3_iff]
  intro a
  match a with
  | ⟨0, _⟩ =>
    show win0_3.index ⟨(i 0).val / 8192, ht⟩ (0 : Fin 2) * 8192 ≤ (i 0).val
      ∧ (i 0).val < win0_3.index ⟨(i 0).val / 8192, ht⟩ (0 : Fin 2) * 8192 + 8192
    rw [eb']; omega
  | ⟨1, _⟩ =>
    show win0_3.index ⟨(i 0).val / 8192, ht⟩ (1 : Fin 2) * 128 ≤ (i 1).val
      ∧ (i 1).val < win0_3.index ⟨(i 0).val / 8192, ht⟩ (1 : Fin 2) * 128 + 128
    rw [el]; omega

/-! ## The arrays the region leaves -/

/-- The region leaves `G0_2` of the input in the sum output … -/
theorem G0_2_final (c : Dev nD) : (dat0 V c).arrAt 2 cfg0.N = G0_2 (V c main_v1) :=
  (dat0 V c).arrAt_eq_of_cover 2 (G0_2 (V c main_v1)) (fun t _ => flushed_eq0_2 V c t) cover0_2

/-- … and `G0_3` of it in the difference output. -/
theorem G0_3_final (c : Dev nD) : (dat0 V c).arrAt 3 cfg0.N = G0_3 (V c main_v1) :=
  (dat0 V c).arrAt_eq_of_cover 3 (G0_3 (V c main_v1)) (fun t _ => flushed_eq0_3 V c t) cover0_3

/-! ## Read by position -/

/-- Two rank-2 indices with equal coordinates are equal. -/
theorem idx0_ix2_congr {n m : ℕ} {a a' : Fin n} {b b' : Fin m} (ha : a.val = a'.val) (hb : b.val = b'.val) :
    ix2 a b = ix2 a' b' := by
  cases Fin.ext ha; cases Fin.ext hb; rfl

/-- Position `k` of `G0_2 x` pairs positions `k` and `k + 1048576` of `x`: one whole output of rows further down is
    1048576 positions further on, in the same lane. -/
theorem G0_2_rd2 (x : S262144x128.Idx → Ideal .f32) (k : ℕ) (hk : k < 1048576) :
    rd2 (G0_2 x) k = (rd2 x k + rd2 x (k + 1048576)) * sc := by
  have hlen : out0_rows * 128 = 1048576 := by decide +kernel
  have hfit := out0_rows_le
  rw [rd2_of_lt (G0_2 x) (by omega : k < out0_rows * 128), rd2_of_lt x (by omega : k < 262144 * 128),
    rd2_of_lt x (by omega : k + 1048576 < 262144 * 128)]
  unfold G0_2
  exact congrArg (· * sc) (congrArg₂ (· + ·) rfl (congrArg x (idx0_ix2_congr
    (by show k / 128 + out0_rows = (k + 1048576) / 128; omega) (by show k % 128 = (k + 1048576) % 128; omega))))

/-- The same for `G0_3 x`. -/
theorem G0_3_rd2 (x : S262144x128.Idx → Ideal .f32) (k : ℕ) (hk : k < 1048576) :
    rd2 (G0_3 x) k = (rd2 x k - rd2 x (k + 1048576)) * sc := by
  have hlen : out0_rows * 128 = 1048576 := by decide +kernel
  have hfit := out0_rows_le
  rw [rd2_of_lt (G0_3 x) (by omega : k < out0_rows * 128), rd2_of_lt x (by omega : k < 262144 * 128),
    rd2_of_lt x (by omega : k + 1048576 < 262144 * 128)]
  unfold G0_3
  exact congrArg (· * sc) (congrArg₂ (· - ·) rfl (congrArg x (idx0_ix2_congr
    (by show k / 128 + out0_rows = (k + 1048576) / 128; omega) (by show k % 128 = (k + 1048576) % 128; omega))))

/-- THE SUM OUTPUT after the region, by position: the scaled sums of the input's entries `k` and `k + 1048576`. -/
theorem sum0 (c : Dev nD) (k : ℕ) (hk : k < 1048576) :
    rd2 ((dat0 (F := Ideal) V c).arrAt 2 cfg0.N) k = (rd2 (V c main_v1) k + rd2 (V c main_v1) (k + 1048576)) * sc :=
  (congrArg (fun a => rd2 a k) (G0_2_final V c)).trans (G0_2_rd2 (V c main_v1) k hk)

/-- THE DIFFERENCE OUTPUT after the region, by position: the scaled differences of the same entries. -/
theorem diff0 (c : Dev nD) (k : ℕ) (hk : k < 1048576) :
    rd2 ((dat0 (F := Ideal) V c).arrAt 3 cfg0.N) k = (rd2 (V c main_v1) k - rd2 (V c main_v1) (k + 1048576)) * sc :=
  (congrArg (fun a => rd2 a k) (G0_3_final V c)).trans (G0_3_rd2 (V c main_v1) k hk)

end Cert.KernelIdeal.Butterfly

end
-- ==== Proof.KI.Levels.lean ====
/-
  The idealized kernel program's result is the five levels of its argument.

  Each butterfly call with the host stretch after it is one level of the transform on the flat signal: the call's two
  output arrays hold, row-major, the scaled sums and differences of the signal's entries `k` and `k + h` (the call reads
  the signal as rows of 128, and row `r` of an output pairs rows `r` and `r + h / 128`); the stretch interleaves them
  into the first `2 * h` positions and keeps the signal's later positions. Five levels, at half-lengths 1048576 up to
  16777216, take the argument read by position to the result read by position.
-/
import proofs.«117748_j28784870817852_1_alg».proof.Proof.KI.Kept
import proofs.«117748_j28784870817852_1_alg».proof.Proof.KI.HostLevels
import proofs.«117748_j28784870817852_1_alg».proof.Proof.KI.Value0
import proofs.«117748_j28784870817852_1_alg».proof.Proof.KI.Value1
import proofs.«117748_j28784870817852_1_alg».proof.Proof.KI.Value2
import proofs.«117748_j28784870817852_1_alg».proof.Proof.KI.Value3
import proofs.«117748_j28784870817852_1_alg».proof.Proof.KI.Value4
import proofs.«117748_j28784870817852_1_alg».proof.Proof.Haar

set_option maxRecDepth 16384

noncomputable section

namespace Cert.KernelIdeal.Butterfly

open Cert.KernelIdeal Cert.KernelIdeal.Gen Cert.KernelIdeal.HostLevels Cert.Haar
open Idealize.ShloMosaic Idealize.ShloMosaic.TcCoe
open Idealize.SL.Sem

variable (m : (ℓ : Loc nD τ sig) → Buf (Elt Ideal) ℓ)

/-- The flat signal the first call is entered with is the argument read by position. -/
theorem signal0 (c : Dev nD) : rd1 (W1 m c (Proc.devRef .tc main_v0)) = rd3 (m ((c : Thread nD τ).loc main_arg0)) :=
  (host0 (W0 m c)).1

/-- Call 0's level: the flat signal after the stretch that follows it is one level, at half-length 1048576, of the flat
    signal the call was entered with. -/
theorem level0 (c : Dev nD) :
    rd1 (W3 m c (Proc.devRef .tc main_v10)) = lvl 1048576 (rd1 (W1 m c (Proc.devRef .tc main_v0))) := by
  have hx : rd2 (Vin0 m c main_v1) = rd1 (W1 m c (Proc.devRef .tc main_v0)) := (host0 (W0 m c)).2
  refine lvl_eq 1048576 _ (rd2 (W2 m c (Proc.devRef .tc main_v2_0))) (rd2 (W2 m c (Proc.devRef .tc main_v2_1))) _ ?_ ?_ ?_
  · intro k hk
    rw [W2_out0 m c, sum0 (Vin0 m) c k hk, hx]
  · intro k hk
    rw [W2_out1 m c, diff0 (Vin0 m) c k hk, hx]
  · intro i
    rw [(host1 (W2 m c)).1 i, W2_of_ne m c main_v0 (by decide) (by decide)]

/-- Call 1's level: the flat signal after the stretch that follows it is one level, at half-length 2097152, of the flat
    signal the call was entered with. -/
theorem level1 (c : Dev nD) :
    rd1 (W5 m c (Proc.devRef .tc main_v20)) = lvl 2097152 (rd1 (W3 m c (Proc.devRef .tc main_v10))) := by
  have hx : rd2 (Vin1 m c main_v11) = rd1 (W3 m c (Proc.devRef .tc main_v10)) := (host1 (W2 m c)).2
  refine lvl_eq 2097152 _ (rd2 (W4 m c (Proc.devRef .tc main_v12_0))) (rd2 (W4 m c (Proc.devRef .tc main_v12_1))) _ ?_ ?_ ?_
  · intro k hk
    rw [W4_out0 m c, sum1 (Vin1 m) c k hk, hx]
  · intro k hk
    rw [W4_out1 m c, diff1 (Vin1 m) c k hk, hx]
  · intro i
    rw [(host2 (W4 m c)).1 i, W4_of_ne m c main_v10 (by decide) (by decide)]

/-- Call 2's level: the flat signal after the stretch that follows it is one level, at half-length 4194304, of the flat
    signal the call was entered with. -/
theorem level2 (c : Dev nD) :
    rd1 (W7 m c (Proc.devRef .tc main_v30)) = lvl 4194304 (rd1 (W5 m c (Proc.devRef .tc main_v20))) := by
  have hx : rd2 (Vin2 m c main_v21) = rd1 (W5 m c (Proc.devRef .tc main_v20)) := (host2 (W4 m c)).2
  refine lvl_eq 4194304 _ (rd2 (W6 m c (Proc.devRef .tc main_v22_0))) (rd2 (W6 m c (Proc.devRef .tc main_v22_1))) _ ?_ ?_ ?_
  · intro k hk
    rw [W6_out0 m c, sum2 (Vin2 m) c k hk, hx]
  · intro k hk
    rw [W6_out1 m c, diff2 (Vin2 m) c k hk, hx]
  · intro i
    rw [(host3 (W6 m c)).1 i, W6_of_ne m c main_v20 (by decide) (by decide)]

/-- Call 3's level: the flat signal after the stretch that follows it is one level, at half-length 8388608, of the flat
    signal the call was entered with. -/
theorem level3 (c : Dev nD) :
    rd1 (W9 m c (Proc.devRef .tc main_v40)) = lvl 8388608 (rd1 (W7 m c (Proc.devRef .tc main_v30))) := by
  have hx : rd2 (Vin3 m c main_v31) = rd1 (W7 m c (Proc.devRef .tc main_v30)) := (host3 (W6 m c)).2
  refine lvl_eq 8388608 _ (rd2 (W8 m c (Proc.devRef .tc main_v32_0))) (rd2 (W8 m c (Proc.devRef .tc main_v32_1))) _ ?_ ?_ ?_
  · intro k hk
    rw [W8_out0 m c, sum3 (Vin3 m) c k hk, hx]
  · intro k hk
    rw [W8_out1 m c, diff3 (Vin3 m) c k hk, hx]
  · intro i
    rw [(host4 (W8 m c)).1 i, W8_of_ne m c main_v30 (by decide) (by decide)]

/-- The last call's level: the result, read by position, is one level, at half the signal's length, of the flat signal
    the call was entered with (there is no later position to keep: beyond the signal's length both read zero). -/
theorem level4 (c : Dev nD) :
    rd3 (W11 m c (Proc.devRef .tc main_v49)) = lvl 16777216 (rd1 (W9 m c (Proc.devRef .tc main_v40))) := by
  have hx : rd2 (Vin4 m c main_v41) = rd1 (W9 m c (Proc.devRef .tc main_v40)) := (host4 (W8 m c)).2
  refine lvl_eq 16777216 _ (rd2 (W10 m c (Proc.devRef .tc main_v42_0))) (rd2 (W10 m c (Proc.devRef .tc main_v42_1))) _ ?_ ?_ ?_
  · intro k hk
    rw [W10_out0 m c, sum4 (Vin4 m) c k hk, hx]
  · intro k hk
    rw [W10_out1 m c, diff4 (Vin4 m) c k hk, hx]
  · intro i
    rw [host5 (W10 m c) i]
    by_cases hi : i < 2 * 16777216
    · rw [if_pos hi, if_pos hi]
    · rw [if_neg hi, if_neg hi, rd1_of_le _ (by omega)]

/-- THE KERNEL'S VALUE: the result buffer's last contents, read by position, are the five levels of the argument read by
    position. -/
theorem result (c : Dev nD) :
    rd3 (W11 m c (Proc.devRef .tc main_v49)) = Haar.all (rd3 (m ((c : Thread nD τ).loc main_arg0))) := by
  rw [level4, level3, level2, level1, level0, signal0]
  rfl

end Cert.KernelIdeal.Butterfly

end
-- ==== Proof.LibScatterSet.lean ====
/-
  The host's replacing scatter read at an entry, for any dimension numbers.

  The host's scatter whose body returns the update's element is a left fold over the update indices in row-major order:
  each step sends its update index to an operand index (the window's start plus the window coordinate, when that is
  inside the operand on every axis) and replaces the entry there by the update's element; an update whose operand index
  falls outside the operand is dropped. So where several updates land on one entry the LATER one in row-major order
  stays. Read at an entry i this gives two cases: either some update lands at i, and then the result at i is the element
  of the LAST update (in row-major order) that lands there; or no update lands at i, and the result at i is the
  operand's entry.

  The road: first a fold over any list whose step replaces the value at the step's target. By induction from the right,
  its value at i is the value of an element n with target i in a splitting l = l₁ ++ n :: l₂ where nothing in l₂ has
  target i, or the initial value at i when nothing in l has target i. The list of all positions below a bound is strictly
  increasing and holds every position, so in such a splitting of it every position above n lies in l₂; that turns the
  splitting into "no later position has target i".
-/
import Idealize.ShloMosaic.PureOps.ShapeOps
import Mathlib.Data.List.Sort

namespace Idealize.ShloMosaic.ScatterSet

open Idealize.ShloMosaic

/-- A left fold whose step, at an element with target i, replaces the value at i by that element's value, and at any
    other element leaves the value at i alone: its value at i is the value of the last element of the list with
    target i, or the initial value at i when the list has no such element. -/
theorem foldl_set_cases {ι I α : Type} (tgt : ι → Option I) (val : ι → α) (i : I)
    (step : (I → α) → ι → (I → α))
    (hhit : ∀ r n, tgt n = some i → step r n i = val n)
    (hmiss : ∀ r n, tgt n ≠ some i → step r n i = r i)
    (x : I → α) (l : List ι) :
    (∃ l₁ n l₂, l = l₁ ++ n :: l₂ ∧ tgt n = some i ∧ (∀ m ∈ l₂, tgt m ≠ some i) ∧ l.foldl step x i = val n)
      ∨ ((∀ m ∈ l, tgt m ≠ some i) ∧ l.foldl step x i = x i) := by
  induction l using List.reverseRecOn with
  | nil => exact Or.inr ⟨by simp, rfl⟩
  | append_singleton l n ih =>
    rw [List.foldl_append, List.foldl_cons, List.foldl_nil]
    by_cases hn : tgt n = some i
    · exact Or.inl ⟨l, n, [], rfl, hn, by simp, hhit _ n hn⟩
    · rw [hmiss _ n hn]
      rcases ih with ⟨l₁, m, l₂, hl, hm, hl₂, hv⟩ | ⟨hno, hv⟩
      · refine Or.inl ⟨l₁, m, l₂ ++ [n], by rw [hl]; simp, hm, ?_, hv⟩
        intro k hk
        rcases List.mem_append.1 hk with hk | hk
        · exact hl₂ k hk
        · rw [List.mem_singleton.1 hk]; exact hn
      · refine Or.inr ⟨?_, hv⟩
        intro k hk
        rcases List.mem_append.1 hk with hk | hk
        · exact hno k hk
        · rw [List.mem_singleton.1 hk]; exact hn

/-- The same fold over all positions below N, in increasing order: its value at i is the value of the LAST position
    with target i, or the initial value at i when no position has target i. -/
theorem foldl_finRange_set_cases {N : ℕ} {I α : Type} (tgt : Fin N → Option I) (val : Fin N → α) (i : I)
    (step : (I → α) → Fin N → (I → α))
    (hhit : ∀ r n, tgt n = some i → step r n i = val n)
    (hmiss : ∀ r n, tgt n ≠ some i → step r n i = r i)
    (x : I → α) :
    (∃ n : Fin N, tgt n = some i ∧ (∀ n' : Fin N, n < n' → tgt n' ≠ some i)
        ∧ (List.finRange N).foldl step x i = val n)
      ∨ ((∀ n : Fin N, tgt n ≠ some i) ∧ (List.finRange N).foldl step x i = x i) := by
  rcases foldl_set_cases tgt val i step hhit hmiss x (List.finRange N) with ⟨l₁, n, l₂, hl, hn, hl₂, hv⟩ | ⟨hno, hv⟩
  · refine Or.inl ⟨n, hn, ?_, hv⟩
    intro n' hlt
    have hsorted : (l₁ ++ n :: l₂).Pairwise (· < ·) := hl ▸ (List.sortedLT_finRange N).pairwise
    have hmem : n' ∈ l₁ ++ n :: l₂ := hl ▸ List.mem_finRange n'
    rcases List.mem_append.1 hmem with h | h
    · exact absurd ((List.pairwise_append.1 hsorted).2.2 n' h n (List.mem_cons_self ..)) (lt_asymm hlt)
    · rcases List.mem_cons.1 h with h | h
      · exact absurd h (ne_of_gt hlt)
      · exact hl₂ n' h
  · exact Or.inr ⟨fun n => hno n (List.mem_finRange n), hv⟩

/-- The replacing scatter read at an entry i: either some update index lands at i, and the result at i is the element
    of the last such update index in row-major order; or no update index lands at i, and the result at i is the operand's
    entry. -/
theorem scatter_set_cases {α : Type} {s si u : Shape} {w : ℕ} (d : ScatterDims s si u)
    (x : s.Idx → α) (idx : IVec si w) (upd : u.Idx → α) (i : s.Idx) :
    (∃ n : Fin u.numel, d.resultIdx? (u.rowMajor.symm n) idx = some i
        ∧ (∀ n' : Fin u.numel, n < n' → d.resultIdx? (u.rowMajor.symm n') idx ≠ some i)
        ∧ Host.scatter d (fun _ b => b) x idx upd i = upd (u.rowMajor.symm n))
    ∨ ((∀ n : Fin u.numel, d.resultIdx? (u.rowMajor.symm n) idx ≠ some i)
        ∧ Host.scatter d (fun _ b => b) x idx upd i = x i) := by
  unfold Host.scatter
  refine foldl_finRange_set_cases (fun n => d.resultIdx? (u.rowMajor.symm n) idx) (fun n => upd (u.rowMajor.symm n)) i
    _ ?_ ?_ x
  · intro r n hn
    have hn' : d.resultIdx? (u.rowMajor.symm n) idx = some i := hn
    simp only [hn', if_true]
  · intro r n hn
    have hn' : d.resultIdx? (u.rowMajor.symm n) idx ≠ some i := hn
    cases h₀ : d.resultIdx? (u.rowMajor.symm n) idx with
    | none => simp only [h₀]
    | some i₀ =>
      have hne : i ≠ i₀ := fun h => hn' (h₀.trans (congrArg some h.symm))
      simp only [h₀, if_neg hne]

end Idealize.ShloMosaic.ScatterSet
-- ==== Proof.LibRefLevel.lean ====
/-
  The operations of one level of an interleaving transform over a [1, 1, L] array, read at an index.

  A slice of a [1, 1, m] array along its last axis reads the array at the offset plus the position. A [1, 1, h] array laid
  out as [1, 1, h, 1] keeps its entries; two such arrays put side by side along the new axis and the [1, 1, h, 2] array
  re-read as [1, 1, 2 * h] are interleaved: position 2 * k holds the first array's entry k and position 2 * k + 1 the
  second's. The host's replacing scatter of a [1, 1, n] update whose window covers all three axes and starts at zero
  replaces the first n entries of a [1, 1, L] operand by the update's and keeps the rest.

  For the scatter: an update index lands at the operand index whose coordinates are the window's start plus the window
  coordinate, when that is inside the operand. With all three axes window axes and none inserted, the window coordinate on
  an axis is the update index's own coordinate; the start is zero on an axis the index vector does not name, and the
  index vector's component read as a signed integer on one it names, zero again when the indices are all zero. So update
  index (0, 0, k) lands at operand index (0, 0, k): an injective map, whence no two updates meet, each entry below n takes
  its own update's element, and every entry from n on, where no update lands, keeps the operand's.
-/
import proofs.«117748_j28784870817852_1_alg».proof.Proof.LibScatterSet
import Idealize.ShloMosaic.Lib.ValueIdx
import Idealize.ShloMosaic.Lib.Pipeline.Value

namespace Idealize.ShloMosaic.RefLevel

open Idealize.ShloMosaic Idealize.ShloMosaic.ValueIdx

variable {α : Type}

/-! ## Slices, columns, two arrays interleaved -/

/-- A slice of a [1, 1, m] array along its last axis from offset o: entry (0, 0, k) is the array's entry (0, 0, o + k). -/
theorem slice3_apply {m n : ℕ} (o : ℕ) (x : (⟨3, ![1, 1, m]⟩ : Shape).Idx → α)
    (hs : (⟨3, ![1, 1, m]⟩ : Shape).Slices ![0, 0, o] ⟨3, ![1, 1, n]⟩) (k : Fin n) (k' : Fin m) (hk : k'.val = o + k.val) :
    extractStridedSlice ⟨3, ![1, 1, n]⟩ ![0, 0, o] x hs (ix3 (0 : Fin 1) (0 : Fin 1) k) = x (ix3 (0 : Fin 1) (0 : Fin 1) k') :=
  extractStridedSlice_apply ![0, 0, o] x hs (ix3 (0 : Fin 1) (0 : Fin 1) k) (ix3 (0 : Fin 1) (0 : Fin 1) k') (fun a => by
    match a with
    | ⟨0, _⟩ => rfl
    | ⟨1, _⟩ => rfl
    | ⟨2, _⟩ => exact hk)

/-- A [1, 1, h] array laid out as [1, 1, h, 1] keeps its entries. -/
theorem bcast_col4_apply {h : ℕ}
    (hb : (⟨3, ![1, 1, h]⟩ : Shape).BroadcastsInDim ⟨4, ![1, 1, h, 1]⟩ ![0, 1, 2])
    (v : (⟨3, ![1, 1, h]⟩ : Shape).Idx → α) (p : Fin h) (u : Fin 1) :
    broadcastInDim ⟨4, ![1, 1, h, 1]⟩ ![0, 1, 2] hb v (ix4 (0 : Fin 1) (0 : Fin 1) p u) = v (ix3 (0 : Fin 1) (0 : Fin 1) p) :=
  broadcastInDim_apply ![0, 1, 2] hb v (ix4 (0 : Fin 1) (0 : Fin 1) p u) (ix3 (0 : Fin 1) (0 : Fin 1) p) (fun a => by
    match a with
    | ⟨0, _⟩ => rfl
    | ⟨1, _⟩ => rfl
    | ⟨2, _⟩ =>
      show p.val = if h = 1 then 0 else p.val
      have := p.isLt
      split <;> omega)

/-- Two [1, 1, h] arrays c, d, each laid out as [1, 1, h, 1], put side by side along the new axis and the [1, 1, h, 2] array
    re-read as [1, 1, m]: position i holds c (i / 2) when i is even and d (i / 2) when it is odd. -/
theorem interleave3_apply {h m : ℕ}
    (hb : (⟨3, ![1, 1, h]⟩ : Shape).BroadcastsInDim ⟨4, ![1, 1, h, 1]⟩ ![0, 1, 2])
    (hc : Shape.Concatenates [(⟨4, ![1, 1, h, 1]⟩ : Shape), ⟨4, ![1, 1, h, 1]⟩] ⟨4, ![1, 1, h, 2]⟩ 3)
    (hs : (⟨4, ![1, 1, h, 2]⟩ : Shape).ShapeCasts ⟨3, ![1, 1, m]⟩)
    (c d : (⟨3, ![1, 1, h]⟩ : Shape).Idx → α) (i : Fin m) (p : Fin h) (hp : p.val = i.val / 2) :
    shapeCast ⟨3, ![1, 1, m]⟩ (concatenate ⟨4, ![1, 1, h, 2]⟩ 3
        [⟨⟨4, ![1, 1, h, 1]⟩, broadcastInDim ⟨4, ![1, 1, h, 1]⟩ ![0, 1, 2] hb c⟩,
         ⟨⟨4, ![1, 1, h, 1]⟩, broadcastInDim ⟨4, ![1, 1, h, 1]⟩ ![0, 1, 2] hb d⟩] hc) hs (ix3 (0 : Fin 1) (0 : Fin 1) i)
      = if i.val % 2 = 0 then c (ix3 (0 : Fin 1) (0 : Fin 1) p) else d (ix3 (0 : Fin 1) (0 : Fin 1) p) := by
  by_cases he : i.val % 2 = 0
  · rw [if_pos he]
    refine (shapeCast_apply _ hs (ix3 (0 : Fin 1) (0 : Fin 1) i) (ix4 (0 : Fin 1) (0 : Fin 1) p (0 : Fin 2)) (by
      rw [Shape.rowMajor_val_four, Shape.rowMajor_val_three]
      show ((0 * 1 + 0) * h + p.val) * 2 + 0 = (0 * 1 + 0) * m + i.val
      omega)).trans ?_
    refine (concatenate_pair_apply_left (t := ⟨4, ![1, 1, h, 2]⟩) (s₁ := ⟨4, ![1, 1, h, 1]⟩) (s₂ := ⟨4, ![1, 1, h, 1]⟩) 3 _ _ hc
      (ix4 (0 : Fin 1) (0 : Fin 1) p (0 : Fin 2)) rfl (ix4 (0 : Fin 1) (0 : Fin 1) p (0 : Fin 1))
      (fun b => by match b with | ⟨0, _⟩ => rfl | ⟨1, _⟩ => rfl | ⟨2, _⟩ => rfl | ⟨3, _⟩ => rfl)).trans ?_
    exact bcast_col4_apply hb c p 0
  · rw [if_neg he]
    refine (shapeCast_apply _ hs (ix3 (0 : Fin 1) (0 : Fin 1) i) (ix4 (0 : Fin 1) (0 : Fin 1) p (1 : Fin 2)) (by
      rw [Shape.rowMajor_val_four, Shape.rowMajor_val_three]
      show ((0 * 1 + 0) * h + p.val) * 2 + 1 = (0 * 1 + 0) * m + i.val
      omega)).trans ?_
    refine (concatenate_pair_apply_right (t := ⟨4, ![1, 1, h, 2]⟩) (s₁ := ⟨4, ![1, 1, h, 1]⟩) (s₂ := ⟨4, ![1, 1, h, 1]⟩) 3 _ _ hc
      (ix4 (0 : Fin 1) (0 : Fin 1) p (1 : Fin 2)) rfl rfl (ix4 (0 : Fin 1) (0 : Fin 1) p (0 : Fin 1))
      (fun b hb => by
        match b with
        | ⟨0, _⟩ => rfl
        | ⟨1, _⟩ => rfl
        | ⟨2, _⟩ => rfl
        | ⟨3, _⟩ => exact absurd rfl hb) rfl).trans ?_
    exact bcast_col4_apply hb d p 0

/-! ## The replacing scatter over the head of an array -/

/-- An update index lands at the operand index whose coordinates are the window's start plus the window coordinate. -/
theorem resultIdx?_eq_some {s si u : Shape} {w : ℕ} (d : ScatterDims s si u) (idx : IVec si w) (j : u.Idx) (i : s.Idx)
    (hi : ∀ a, d.start j idx a + (d.window j a : ℤ) = ((i a).val : ℤ)) : d.resultIdx? j idx = some i := by
  unfold ScatterDims.resultIdx?
  have h : ∀ a, 0 ≤ d.start j idx a + d.window j a ∧ d.start j idx a + d.window j a < s.size a := fun a => by
    rw [hi a]; have := (i a).isLt; constructor <;> omega
  rw [dif_pos h]
  refine congrArg some (funext fun a => Fin.ext ?_)
  show (d.start j idx a + d.window j a).toNat = (i a).val
  rw [hi a]; rfl

/-- Where the scatter indices are all zero every window starts at zero on every axis. -/
theorem start_of_idx_zero {s si u : Shape} {w : ℕ} (d : ScatterDims s si u) (idx : IVec si w) (hidx : ∀ k, idx k = 0)
    (j : u.Idx) (a : Fin s.rank) : d.start j idx a = 0 := by
  unfold ScatterDims.start
  split
  · rw [hidx]; exact BitVec.toInt_zero
  · rfl

/-- Where the index vector names no operand axis every window starts at zero on every axis. -/
theorem start_of_nil {s si u : Shape} {w : ℕ} (d : ScatterDims s si u) (hd : d.scatterDimsToOperandDims = []) (idx : IVec si w)
    (j : u.Idx) (a : Fin s.rank) : d.start j idx a = 0 := by
  unfold ScatterDims.start
  rw [dif_neg (by rw [hd]; exact List.not_mem_nil)]

/-- With all three axes window axes and none inserted, the window coordinate on an axis is the update index's own. -/
theorem window_012 {L n : ℕ} {si : Shape} (d : ScatterDims ⟨3, ![1, 1, L]⟩ si ⟨3, ![1, 1, n]⟩)
    (huw : d.updateWindowDims = [0, 1, 2]) (hiw : d.insertedWindowDims = []) (j : (⟨3, ![1, 1, n]⟩ : Shape).Idx)
    (a : Fin 3) : d.window j a = (j a).val := by
  obtain ⟨uw, iw, sd, iv, wf⟩ := d
  subst huw hiw
  match a with
  | ⟨0, _⟩ => rfl
  | ⟨1, _⟩ => rfl
  | ⟨2, _⟩ => rfl

/-- The replacing scatter whose update indices land, each, at the operand index an injective map e names: at e j the
    result is the update's entry j, and off e's range it is the operand's entry. -/
theorem scatter_set_of_embed {s si u : Shape} {w : ℕ} (d : ScatterDims s si u) (x : s.Idx → α) (idx : IVec si w)
    (upd : u.Idx → α) (e : u.Idx → s.Idx) (he : ∀ j, d.resultIdx? j idx = some (e j)) (hinj : Function.Injective e) :
    (∀ j, Host.scatter d (fun _ b => b) x idx upd (e j) = upd j)
      ∧ (∀ i, (∀ j, e j ≠ i) → Host.scatter d (fun _ b => b) x idx upd i = x i) := by
  constructor
  · intro j
    rcases ScatterSet.scatter_set_cases d x idx upd (e j) with ⟨n, hn, _, hv⟩ | ⟨hno, _⟩
    · rw [he] at hn
      rw [hv, hinj (Option.some.inj hn)]
    · exact absurd (by rw [Equiv.symm_apply_apply]; exact he j) (hno (u.rowMajor j))
  · intro i hi
    rcases ScatterSet.scatter_set_cases d x idx upd i with ⟨n, hn, _, _⟩ | ⟨_, hv⟩
    · rw [he] at hn
      exact absurd (Option.some.inj hn) (hi _)
    · exact hv

/-- The replacing scatter of a [1, 1, n] update, its window all three axes and starting at zero, into a [1, 1, L] operand:
    entry (0, 0, k) is the update's below n and the operand's from n on. -/
theorem scatter_prefix3_apply {L n w : ℕ} (hn : n ≤ L) {si : Shape} (d : ScatterDims ⟨3, ![1, 1, L]⟩ si ⟨3, ![1, 1, n]⟩)
    (huw : d.updateWindowDims = [0, 1, 2]) (hiw : d.insertedWindowDims = [])
    (x : (⟨3, ![1, 1, L]⟩ : Shape).Idx → α) (idx : IVec si w) (hstart : ∀ j a, d.start j idx a = 0)
    (upd : (⟨3, ![1, 1, n]⟩ : Shape).Idx → α) (k : Fin L) :
    Host.scatter d (fun _ b => b) x idx upd (ix3 (0 : Fin 1) (0 : Fin 1) k)
      = if h : k.val < n then upd (ix3 (0 : Fin 1) (0 : Fin 1) ⟨k.val, h⟩) else x (ix3 (0 : Fin 1) (0 : Fin 1) k) := by
  let e : (⟨3, ![1, 1, n]⟩ : Shape).Idx → (⟨3, ![1, 1, L]⟩ : Shape).Idx := fun j =>
    ix3 (0 : Fin 1) (0 : Fin 1) ⟨(j 2).val, lt_of_lt_of_le (j 2).isLt hn⟩
  have hz0 : ∀ j : (⟨3, ![1, 1, n]⟩ : Shape).Idx, (j 0).val = 0 := fun j => by
    have := (j 0).isLt; change (j 0).val < 1 at this; omega
  have hz1 : ∀ j : (⟨3, ![1, 1, n]⟩ : Shape).Idx, (j 1).val = 0 := fun j => by
    have := (j 1).isLt; change (j 1).val < 1 at this; omega
  have he : ∀ j, d.resultIdx? j idx = some (e j) := fun j => by
    refine resultIdx?_eq_some d idx j (e j) (fun a => ?_)
    rw [hstart j a, window_012 d huw hiw j a, zero_add]
    match a with
    | ⟨0, _⟩ => exact congrArg Nat.cast (hz0 j)
    | ⟨1, _⟩ => exact congrArg Nat.cast (hz1 j)
    | ⟨2, _⟩ => rfl
  have hinj : Function.Injective e := fun j j' hjj => by
    funext a
    match a with
    | ⟨0, _⟩ => exact Fin.ext ((hz0 j).trans (hz0 j').symm)
    | ⟨1, _⟩ => exact Fin.ext ((hz1 j).trans (hz1 j').symm)
    | ⟨2, _⟩ => exact Fin.ext (congrArg (fun i : (⟨3, ![1, 1, L]⟩ : Shape).Idx => (i 2).val) hjj)
  have H := scatter_set_of_embed d x idx upd e he hinj
  by_cases hk : k.val < n
  · rw [dif_pos hk]
    exact H.1 (ix3 (0 : Fin 1) (0 : Fin 1) ⟨k.val, hk⟩)
  · rw [dif_neg hk]
    refine H.2 _ (fun j hj => hk ?_)
    have h2 : (j 2).val = k.val := congrArg (fun i : (⟨3, ![1, 1, L]⟩ : Shape).Idx => (i 2).val) hj
    have := (j 2).isLt
    change (j 2).val < n at this
    omega

end Idealize.ShloMosaic.RefLevel
-- ==== Proof.RefValue.lean ====
/-
  The reference program's result, read by position: the five levels of the inverse Haar transform of its argument.

  Each level of the reference takes the first 2 * h entries of the signal, splits them into the halves a (entries 0 to h) and
  b (entries h to 2 * h), forms the scaled sums (a + b) * sc and the scaled differences (a - b) * sc, lays each out as a
  column, puts the two columns side by side and re-reads the [h, 2] rows as 2 * h entries — the sums at the even positions
  and the differences at the odd ones — and writes these 2 * h entries over the head of the signal with a replacing
  scatter whose one window starts at zero. Read by position this is one level of the transform: position 2 * k becomes
  (x k + x (k + h)) * sc, position 2 * k + 1 becomes (x k - x (k + h)) * sc, and every position from 2 * h on keeps its entry.
  The last level, where 2 * h is the whole length, slices its halves off the signal directly and scatters without an index
  vector; it reads the same way. The program's result buffer, after its 88 operations, is the five levels composed, h doubling from 1048576 to 16777216.
-/
import proofs.«117748_j28784870817852_1_alg».proof.Proof.LibRefLevel
import proofs.«117748_j28784870817852_1_alg».proof.Proof.Haar
import proofs.«117748_j28784870817852_1_alg».proof.Proof.RefRun
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.RefLevel Cert.Haar

/-! ## One level, for any sizes -/

/-- One level over any two half-signals A, B that read as the signal's entries k and k + h: the interleaved scaled sums and
    differences, scattered over the head of the signal from position zero, read by position as one level of the signal. -/
theorem level_core {L h n w : ℕ} (hn2 : n = 2 * h) (hnL : n ≤ L) {si : Shape}
    (d : ScatterDims ⟨3, ![1, 1, L]⟩ si ⟨3, ![1, 1, n]⟩)
    (huw : d.updateWindowDims = [0, 1, 2]) (hiw : d.insertedWindowDims = [])
    (hbs : (⟨0, ![]⟩ : Shape).BroadcastsInDim ⟨3, ![1, 1, h]⟩ ![])
    (hb : (⟨3, ![1, 1, h]⟩ : Shape).BroadcastsInDim ⟨4, ![1, 1, h, 1]⟩ ![0, 1, 2])
    (hc : Shape.Concatenates [(⟨4, ![1, 1, h, 1]⟩ : Shape), ⟨4, ![1, 1, h, 1]⟩] ⟨4, ![1, 1, h, 2]⟩ 3)
    (hs : (⟨4, ![1, 1, h, 2]⟩ : Shape).ShapeCasts ⟨3, ![1, 1, n]⟩)
    (x : FVec Ideal ⟨3, ![1, 1, L]⟩ .f32) (idx : IVec si w) (hstart : ∀ j a, d.start j idx a = 0)
    (A B : FVec Ideal ⟨3, ![1, 1, h]⟩ .f32)
    (hA : ∀ k (hk : k < h), A (ix3 (0 : Fin 1) (0 : Fin 1) ⟨k, hk⟩) = rd3 x k)
    (hB : ∀ k (hk : k < h), B (ix3 (0 : Fin 1) (0 : Fin 1) ⟨k, hk⟩) = rd3 x (k + h)) :
    rd3 (Host.scatter d (fun _ b => b) x idx
      (shapeCast ⟨3, ![1, 1, n]⟩ (concatenate ⟨4, ![1, 1, h, 2]⟩ 3
        [⟨⟨4, ![1, 1, h, 1]⟩, broadcastInDim ⟨4, ![1, 1, h, 1]⟩ ![0, 1, 2] hb
            (mulf (addf A B) (broadcastInDim ⟨3, ![1, 1, h]⟩ ![] hbs (constant (F := Ideal) ⟨0, ![]⟩ .f32 0x3F3504F3#32)))⟩,
         ⟨⟨4, ![1, 1, h, 1]⟩, broadcastInDim ⟨4, ![1, 1, h, 1]⟩ ![0, 1, 2] hb
            (mulf (subf A B) (broadcastInDim ⟨3, ![1, 1, h]⟩ ![] hbs (constant (F := Ideal) ⟨0, ![]⟩ .f32 0x3F3504F3#32)))⟩] hc) hs))
      = lvl h (rd3 x) := by
  -- the two half-signals of scaled sums and differences, read by position
  refine lvl_eq h (rd3 x)
    (fun k => if hk : k < h then (rd3 x k + rd3 x (k + h)) * sc else 0)
    (fun k => if hk : k < h then (rd3 x k - rd3 x (k + h)) * sc else 0) _
    (fun k hk => dif_pos hk) (fun k hk => dif_pos hk) (fun i => ?_)
  by_cases hi : i < L
  · rw [rd3_of_lt _ hi, scatter_prefix3_apply hnL d huw hiw x idx hstart _ ⟨i, hi⟩]
    by_cases hin : i < n
    · have hi2 : i < 2 * h := by omega
      have hp : i / 2 < h := by omega
      rw [dif_pos hin, if_pos hi2, interleave3_apply hb hc hs _ _ ⟨i, hin⟩ ⟨i / 2, hp⟩ rfl, dif_pos hp, dif_pos hp]
      by_cases he : i % 2 = 0
      · rw [if_pos he, if_pos he]
        show (A _ + B _) * Ideal.ofBits .f32 0x3F3504F3#32 = _
        rw [hA _ hp, hB _ hp]; rfl
      · rw [if_neg he, if_neg he]
        show (A _ - B _) * Ideal.ofBits .f32 0x3F3504F3#32 = _
        rw [hA _ hp, hB _ hp]; rfl
    · have hi2 : ¬ i < 2 * h := by omega
      rw [dif_neg hin, if_neg hi2, rd3_of_lt x hi]
  · have hi2 : ¬ i < 2 * h := by omega
    rw [rd3_of_le _ (Nat.not_lt.1 hi), if_neg hi2, rd3_of_le x (Nat.not_lt.1 hi)]

/-- One level whose halves are sliced off the first n = 2 * h entries of the signal, scattered at the one index zero. -/
theorem level_mid {L h n : ℕ} (hn2 : n = 2 * h) (hnL : n ≤ L)
    (d : ScatterDims ⟨3, ![1, 1, L]⟩ ⟨1, ![1]⟩ ⟨3, ![1, 1, n]⟩)
    (huw : d.updateWindowDims = [0, 1, 2]) (hiw : d.insertedWindowDims = [])
    (hsl : (⟨3, ![1, 1, L]⟩ : Shape).Slices ![0, 0, 0] ⟨3, ![1, 1, n]⟩)
    (hsa : (⟨3, ![1, 1, n]⟩ : Shape).Slices ![0, 0, 0] ⟨3, ![1, 1, h]⟩)
    (hsb : (⟨3, ![1, 1, n]⟩ : Shape).Slices ![0, 0, h] ⟨3, ![1, 1, h]⟩)
    (hbs : (⟨0, ![]⟩ : Shape).BroadcastsInDim ⟨3, ![1, 1, h]⟩ ![])
    (hb : (⟨3, ![1, 1, h]⟩ : Shape).BroadcastsInDim ⟨4, ![1, 1, h, 1]⟩ ![0, 1, 2])
    (hc : Shape.Concatenates [(⟨4, ![1, 1, h, 1]⟩ : Shape), ⟨4, ![1, 1, h, 1]⟩] ⟨4, ![1, 1, h, 2]⟩ 3)
    (hs : (⟨4, ![1, 1, h, 2]⟩ : Shape).ShapeCasts ⟨3, ![1, 1, n]⟩)
    (idx : IVec ⟨1, ![1]⟩ 32) (hidx : ∀ k, idx k = 0)
    (x : FVec Ideal ⟨3, ![1, 1, L]⟩ .f32) :
    rd3 (Host.scatter d (fun _ b => b) x idx
      (shapeCast ⟨3, ![1, 1, n]⟩ (concatenate ⟨4, ![1, 1, h, 2]⟩ 3
        [⟨⟨4, ![1, 1, h, 1]⟩, broadcastInDim ⟨4, ![1, 1, h, 1]⟩ ![0, 1, 2] hb
            (mulf (addf (extractStridedSlice ⟨3, ![1, 1, h]⟩ ![0, 0, 0] (extractStridedSlice ⟨3, ![1, 1, n]⟩ ![0, 0, 0] x hsl) hsa)
                        (extractStridedSlice ⟨3, ![1, 1, h]⟩ ![0, 0, h] (extractStridedSlice ⟨3, ![1, 1, n]⟩ ![0, 0, 0] x hsl) hsb))
              (broadcastInDim ⟨3, ![1, 1, h]⟩ ![] hbs (constant (F := Ideal) ⟨0, ![]⟩ .f32 0x3F3504F3#32)))⟩,
         ⟨⟨4, ![1, 1, h, 1]⟩, broadcastInDim ⟨4, ![1, 1, h, 1]⟩ ![0, 1, 2] hb
            (mulf (subf (extractStridedSlice ⟨3, ![1, 1, h]⟩ ![0, 0, 0] (extractStridedSlice ⟨3, ![1, 1, n]⟩ ![0, 0, 0] x hsl) hsa)
                        (extractStridedSlice ⟨3, ![1, 1, h]⟩ ![0, 0, h] (extractStridedSlice ⟨3, ![1, 1, n]⟩ ![0, 0, 0] x hsl) hsb))
              (broadcastInDim ⟨3, ![1, 1, h]⟩ ![] hbs (constant (F := Ideal) ⟨0, ![]⟩ .f32 0x3F3504F3#32)))⟩] hc) hs))
      = lvl h (rd3 x) := by
  refine level_core hn2 hnL d huw hiw hbs hb hc hs x idx (start_of_idx_zero d idx hidx) _ _ (fun k hk => ?_) (fun k hk => ?_)
  · have hkn : k < n := by omega
    have hkL : k < L := by omega
    rw [slice3_apply 0 _ hsa ⟨k, hk⟩ ⟨k, hkn⟩ (by show k = 0 + k; omega),
      slice3_apply 0 x hsl ⟨k, hkn⟩ ⟨k, hkL⟩ (by show k = 0 + k; omega), rd3_of_lt x hkL]
  · have hkn : k + h < n := by omega
    have hkL : k + h < L := by omega
    rw [slice3_apply h _ hsb ⟨k, hk⟩ ⟨k + h, hkn⟩ (by show k + h = h + k; omega),
      slice3_apply 0 x hsl ⟨k + h, hkn⟩ ⟨k + h, hkL⟩ (by show k + h = 0 + (k + h); omega), rd3_of_lt x hkL]

/-- The last level: the halves sliced off the whole signal of L = 2 * h entries, scattered with no index vector. -/
theorem level_last {L h : ℕ} (hL2 : L = 2 * h) {si : Shape}
    (d : ScatterDims ⟨3, ![1, 1, L]⟩ si ⟨3, ![1, 1, L]⟩)
    (huw : d.updateWindowDims = [0, 1, 2]) (hiw : d.insertedWindowDims = []) (hsd : d.scatterDimsToOperandDims = [])
    (hsa : (⟨3, ![1, 1, L]⟩ : Shape).Slices ![0, 0, 0] ⟨3, ![1, 1, h]⟩)
    (hsb : (⟨3, ![1, 1, L]⟩ : Shape).Slices ![0, 0, h] ⟨3, ![1, 1, h]⟩)
    (hbs : (⟨0, ![]⟩ : Shape).BroadcastsInDim ⟨3, ![1, 1, h]⟩ ![])
    (hb : (⟨3, ![1, 1, h]⟩ : Shape).BroadcastsInDim ⟨4, ![1, 1, h, 1]⟩ ![0, 1, 2])
    (hc : Shape.Concatenates [(⟨4, ![1, 1, h, 1]⟩ : Shape), ⟨4, ![1, 1, h, 1]⟩] ⟨4, ![1, 1, h, 2]⟩ 3)
    (hs : (⟨4, ![1, 1, h, 2]⟩ : Shape).ShapeCasts ⟨3, ![1, 1, L]⟩)
    (idx : IVec si 32)
    (x : FVec Ideal ⟨3, ![1, 1, L]⟩ .f32) :
    rd3 (Host.scatter d (fun _ b => b) x idx
      (shapeCast ⟨3, ![1, 1, L]⟩ (concatenate ⟨4, ![1, 1, h, 2]⟩ 3
        [⟨⟨4, ![1, 1, h, 1]⟩, broadcastInDim ⟨4, ![1, 1, h, 1]⟩ ![0, 1, 2] hb
            (mulf (addf (extractStridedSlice ⟨3, ![1, 1, h]⟩ ![0, 0, 0] x hsa) (extractStridedSlice ⟨3, ![1, 1, h]⟩ ![0, 0, h] x hsb))
              (broadcastInDim ⟨3, ![1, 1, h]⟩ ![] hbs (constant (F := Ideal) ⟨0, ![]⟩ .f32 0x3F3504F3#32)))⟩,
         ⟨⟨4, ![1, 1, h, 1]⟩, broadcastInDim ⟨4, ![1, 1, h, 1]⟩ ![0, 1, 2] hb
            (mulf (subf (extractStridedSlice ⟨3, ![1, 1, h]⟩ ![0, 0, 0] x hsa) (extractStridedSlice ⟨3, ![1, 1, h]⟩ ![0, 0, h] x hsb))
              (broadcastInDim ⟨3, ![1, 1, h]⟩ ![] hbs (constant (F := Ideal) ⟨0, ![]⟩ .f32 0x3F3504F3#32)))⟩] hc) hs))
      = lvl h (rd3 x) := by
  refine level_core hL2 (Nat.le_refl L) d huw hiw hbs hb hc hs x idx (start_of_nil d hsd idx) _ _ (fun k hk => ?_) (fun k hk => ?_)
  · have hkL : k < L := by omega
    rw [slice3_apply 0 x hsa ⟨k, hk⟩ ⟨k, hkL⟩ (by show k = 0 + k; omega), rd3_of_lt x hkL]
  · have hkL : k + h < L := by omega
    rw [slice3_apply h x hsb ⟨k, hk⟩ ⟨k + h, hkL⟩ (by show k + h = h + k; omega), rd3_of_lt x hkL]

/-! ## The program's five levels

The program's 88 operations are five stretches, one per level, each ending at its scatter. What the operations leave in the
buffers is a fold over the list, so the fold over the whole list is the fold over the fifth stretch started from what the
fourth leaves, and so on down to the argument. Within one stretch, started from ANY contents W of the buffers, the scatter's
result buffer holds the level's composed term over W's contents of the previous level's buffer, and that term read by
position is one level of those contents read by position. -/

section Stretches
variable {F : FTy → Type} [FloatOps F]

/-- The first level's 19 operations: the empty index array the last level uses, then the level at h = 1048576 from the argument into main_v14. -/
abbrev chunk1 : List (HloOp τ sig (Elt F)) :=
  [ nullary main_c (emptyVec S0 hz_S0),
    unary main_arg0 main_v0 ((extractStridedSlice S1x1x2097152 ![0, 0, 0] · slices_S1x1x33554432_S1x1x2097152_0_0_0) : (⟨S1x1x33554432, .f32⟩ : BufTy).Contents (Elt F) → (⟨S1x1x2097152, .f32⟩ : BufTy).Contents (Elt F)),
    unary main_v0 main_v1 ((extractStridedSlice S1x1x1048576 ![0, 0, 0] · slices_S1x1x2097152_S1x1x1048576_0_0_0) : (⟨S1x1x2097152, .f32⟩ : BufTy).Contents (Elt F) → (⟨S1x1x1048576, .f32⟩ : BufTy).Contents (Elt F)),
    unary main_v0 main_v2 ((extractStridedSlice S1x1x1048576 ![0, 0, 1048576] · slices_S1x1x2097152_S1x1x1048576_0_0_1048576) : (⟨S1x1x2097152, .f32⟩ : BufTy).Contents (Elt F) → (⟨S1x1x1048576, .f32⟩ : BufTy).Contents (Elt F)),
    binary main_v1 main_v2 main_v3 (addf : (⟨S1x1x1048576, .f32⟩ : BufTy).Contents (Elt F) → (⟨S1x1x1048576, .f32⟩ : BufTy).Contents (Elt F) → (⟨S1x1x1048576, .f32⟩ : BufTy).Contents (Elt F)),
    nullary main_cst (constant S_ .f32 0x3F3504F3#32),
    unary main_cst main_v4 (broadcastInDim S1x1x1048576 ![] bcast_S_S1x1x1048576 : (⟨S_, .f32⟩ : BufTy).Contents (Elt F) → (⟨S1x1x1048576, .f32⟩ : BufTy).Contents (Elt F)),
    binary main_v3 main_v4 main_v5 (mulf : (⟨S1x1x1048576, .f32⟩ : BufTy).Contents (Elt F) → (⟨S1x1x1048576, .f32⟩ : BufTy).Contents (Elt F) → (⟨S1x1x1048576, .f32⟩ : BufTy).Contents (Elt F)),
    binary main_v1 main_v2 main_v6 (subf : (⟨S1x1x1048576, .f32⟩ : BufTy).Contents (Elt F) → (⟨S1x1x1048576, .f32⟩ : BufTy).Contents (Elt F) → (⟨S1x1x1048576, .f32⟩ : BufTy).Contents (Elt F)),
    nullary main_cst_0 (constant S_ .f32 0x3F3504F3#32),
    unary main_cst_0 main_v7 (broadcastInDim S1x1x1048576 ![] bcast_S_S1x1x1048576 : (⟨S_, .f32⟩ : BufTy).Contents (Elt F) → (⟨S1x1x1048576, .f32⟩ : BufTy).Contents (Elt F)),
    binary main_v6 main_v7 main_v8 (mulf : (⟨S1x1x1048576, .f32⟩ : BufTy).Contents (Elt F) → (⟨S1x1x1048576, .f32⟩ : BufTy).Contents (Elt F) → (⟨S1x1x1048576, .f32⟩ : BufTy).Contents (Elt F)),
    unary main_v5 main_v9 (broadcastInDim S1x1x1048576x1 ![0, 1, 2] bcast_S1x1x1048576_S1x1x1048576x1_0_1_2 : (⟨S1x1x1048576, .f32⟩ : BufTy).Contents (Elt F) → (⟨S1x1x1048576x1, .f32⟩ : BufTy).Contents (Elt F)),
    unary main_v8 main_v10 (broadcastInDim S1x1x1048576x1 ![0, 1, 2] bcast_S1x1x1048576_S1x1x1048576x1_0_1_2 : (⟨S1x1x1048576, .f32⟩ : BufTy).Contents (Elt F) → (⟨S1x1x1048576x1, .f32⟩ : BufTy).Contents (Elt F)),
    binary main_v9 main_v10 main_v11 ((fun a b => concatenate S1x1x1048576x2 3 [⟨S1x1x1048576x1, a⟩, ⟨S1x1x1048576x1, b⟩] concatenates_S1x1x1048576x1_S1x1x1048576x1_S1x1x1048576x2_d3) : (⟨S1x1x1048576x1, .f32⟩ : BufTy).Contents (Elt F) → (⟨S1x1x1048576x1, .f32⟩ : BufTy).Contents (Elt F) → (⟨S1x1x1048576x2, .f32⟩ : BufTy).Contents (Elt F)),
    reshape main_v11 main_v12 rfl shapeCasts_S1x1x1048576x2_S1x1x2097152,
    nullary main_c_1 (constantI S_ 32 0#32),
    unary main_c_1 main_v13 (broadcastInDim S1 ![] bcast_S_S1 : (⟨S_, .i32⟩ : BufTy).Contents (Elt F) → (⟨S1, .i32⟩ : BufTy).Contents (Elt F)),
    ternary main_arg0 main_v13 main_v12 main_v14 ((fun x i u => Host.scatter scatter_S1x1x33554432_S1_S1x1x2097152_012_n_2_0 (fun _ b => b) x i u) : (⟨S1x1x33554432, .f32⟩ : BufTy).Contents (Elt F) → (⟨S1, .i32⟩ : BufTy).Contents (Elt F) → (⟨S1x1x2097152, .f32⟩ : BufTy).Contents (Elt F) → (⟨S1x1x33554432, .f32⟩ : BufTy).Contents (Elt F)) ]

/-- The second level's 18 operations, from main_v14 into main_v29. -/
abbrev chunk2 : List (HloOp τ sig (Elt F)) :=
  [ unary main_v14 main_v15 ((extractStridedSlice S1x1x4194304 ![0, 0, 0] · slices_S1x1x33554432_S1x1x4194304_0_0_0) : (⟨S1x1x33554432, .f32⟩ : BufTy).Contents (Elt F) → (⟨S1x1x4194304, .f32⟩ : BufTy).Contents (Elt F)),
    unary main_v15 main_v16 ((extractStridedSlice S1x1x2097152 ![0, 0, 0] · slices_S1x1x4194304_S1x1x2097152_0_0_0) : (⟨S1x1x4194304, .f32⟩ : BufTy).Contents (Elt F) → (⟨S1x1x2097152, .f32⟩ : BufTy).Contents (Elt F)),
    unary main_v15 main_v17 ((extractStridedSlice S1x1x2097152 ![0, 0, 2097152] · slices_S1x1x4194304_S1x1x2097152_0_0_2097152) : (⟨S1x1x4194304, .f32⟩ : BufTy).Contents (Elt F) → (⟨S1x1x2097152, .f32⟩ : BufTy).Contents (Elt F)),
    binary main_v16 main_v17 main_v18 (addf : (⟨S1x1x2097152, .f32⟩ : BufTy).Contents (Elt F) → (⟨S1x1x2097152, .f32⟩ : BufTy).Contents (Elt F) → (⟨S1x1x2097152, .f32⟩ : BufTy).Contents (Elt F)),
    nullary main_cst_2 (constant S_ .f32 0x3F3504F3#32),
    unary main_cst_2 main_v19 (broadcastInDim S1x1x2097152 ![] bcast_S_S1x1x2097152 : (⟨S_, .f32⟩ : BufTy).Contents (Elt F) → (⟨S1x1x2097152, .f32⟩ : BufTy).Contents (Elt F)),
    binary main_v18 main_v19 main_v20 (mulf : (⟨S1x1x2097152, .f32⟩ : BufTy).Contents (Elt F) → (⟨S1x1x2097152, .f32⟩ : BufTy).Contents (Elt F) → (⟨S1x1x2097152, .f32⟩ : BufTy).Contents (Elt F)),
    binary main_v16 main_v17 main_v21 (subf : (⟨S1x1x2097152, .f32⟩ : BufTy).Contents (Elt F) → (⟨S1x1x2097152, .f32⟩ : BufTy).Contents (Elt F) → (⟨S1x1x2097152, .f32⟩ : BufTy).Contents (Elt F)),
    nullary main_cst_3 (constant S_ .f32 0x3F3504F3#32),
    unary main_cst_3 main_v22 (broadcastInDim S1x1x2097152 ![] bcast_S_S1x1x2097152 : (⟨S_, .f32⟩ : BufTy).Contents (Elt F) → (⟨S1x1x2097152, .f32⟩ : BufTy).Contents (Elt F)),
    binary main_v21 main_v22 main_v23 (mulf : (⟨S1x1x2097152, .f32⟩ : BufTy).Contents (Elt F) → (⟨S1x1x2097152, .f32⟩ : BufTy).Contents (Elt F) → (⟨S1x1x2097152, .f32⟩ : BufTy).Contents (Elt F)),
    unary main_v20 main_v24 (broadcastInDim S1x1x2097152x1 ![0, 1, 2] bcast_S1x1x2097152_S1x1x2097152x1_0_1_2 : (⟨S1x1x2097152, .f32⟩ : BufTy).Contents (Elt F) → (⟨S1x1x2097152x1, .f32⟩ : BufTy).Contents (Elt F)),
    unary main_v23 main_v25 (broadcastInDim S1x1x2097152x1 ![0, 1, 2] bcast_S1x1x2097152_S1x1x2097152x1_0_1_2 : (⟨S1x1x2097152, .f32⟩ : BufTy).Contents (Elt F) → (⟨S1x1x2097152x1, .f32⟩ : BufTy).Contents (Elt F)),
    binary main_v24 main_v25 main_v26 ((fun a b => concatenate S1x1x2097152x2 3 [⟨S1x1x2097152x1, a⟩, ⟨S1x1x2097152x1, b⟩] concatenates_S1x1x2097152x1_S1x1x2097152x1_S1x1x2097152x2_d3) : (⟨S1x1x2097152x1, .f32⟩ : BufTy).Contents (Elt F) → (⟨S1x1x2097152x1, .f32⟩ : BufTy).Contents (Elt F) → (⟨S1x1x2097152x2, .f32⟩ : BufTy).Contents (Elt F)),
    reshape main_v26 main_v27 rfl shapeCasts_S1x1x2097152x2_S1x1x4194304,
    nullary main_c_4 (constantI S_ 32 0#32),
    unary main_c_4 main_v28 (broadcastInDim S1 ![] bcast_S_S1 : (⟨S_, .i32⟩ : BufTy).Contents (Elt F) → (⟨S1, .i32⟩ : BufTy).Contents (Elt F)),
    ternary main_v14 main_v28 main_v27 main_v29 ((fun x i u => Host.scatter scatter_S1x1x33554432_S1_S1x1x4194304_012_n_2_0 (fun _ b => b) x i u) : (⟨S1x1x33554432, .f32⟩ : BufTy).Contents (Elt F) → (⟨S1, .i32⟩ : BufTy).Contents (Elt F) → (⟨S1x1x4194304, .f32⟩ : BufTy).Contents (Elt F) → (⟨S1x1x33554432, .f32⟩ : BufTy).Contents (Elt F)) ]

/-- The third level's 18 operations, from main_v29 into main_v44. -/
abbrev chunk3 : List (HloOp τ sig (Elt F)) :=
  [ unary main_v29 main_v30 ((extractStridedSlice S1x1x8388608 ![0, 0, 0] · slices_S1x1x33554432_S1x1x8388608_0_0_0) : (⟨S1x1x33554432, .f32⟩ : BufTy).Contents (Elt F) → (⟨S1x1x8388608, .f32⟩ : BufTy).Contents (Elt F)),
    unary main_v30 main_v31 ((extractStridedSlice S1x1x4194304 ![0, 0, 0] · slices_S1x1x8388608_S1x1x4194304_0_0_0) : (⟨S1x1x8388608, .f32⟩ : BufTy).Contents (Elt F) → (⟨S1x1x4194304, .f32⟩ : BufTy).Contents (Elt F)),
    unary main_v30 main_v32 ((extractStridedSlice S1x1x4194304 ![0, 0, 4194304] · slices_S1x1x8388608_S1x1x4194304_0_0_4194304) : (⟨S1x1x8388608, .f32⟩ : BufTy).Contents (Elt F) → (⟨S1x1x4194304, .f32⟩ : BufTy).Contents (Elt F)),
    binary main_v31 main_v32 main_v33 (addf : (⟨S1x1x4194304, .f32⟩ : BufTy).Contents (Elt F) → (⟨S1x1x4194304, .f32⟩ : BufTy).Contents (Elt F) → (⟨S1x1x4194304, .f32⟩ : BufTy).Contents (Elt F)),
    nullary main_cst_5 (constant S_ .f32 0x3F3504F3#32),
    unary main_cst_5 main_v34 (broadcastInDim S1x1x4194304 ![] bcast_S_S1x1x4194304 : (⟨S_, .f32⟩ : BufTy).Contents (Elt F) → (⟨S1x1x4194304, .f32⟩ : BufTy).Contents (Elt F)),
    binary main_v33 main_v34 main_v35 (mulf : (⟨S1x1x4194304, .f32⟩ : BufTy).Contents (Elt F) → (⟨S1x1x4194304, .f32⟩ : BufTy).Contents (Elt F) → (⟨S1x1x4194304, .f32⟩ : BufTy).Contents (Elt F)),
    binary main_v31 main_v32 main_v36 (subf : (⟨S1x1x4194304, .f32⟩ : BufTy).Contents (Elt F) → (⟨S1x1x4194304, .f32⟩ : BufTy).Contents (Elt F) → (⟨S1x1x4194304, .f32⟩ : BufTy).Contents (Elt F)),
    nullary main_cst_6 (constant S_ .f32 0x3F3504F3#32),
    unary main_cst_6 main_v37 (broadcastInDim S1x1x4194304 ![] bcast_S_S1x1x4194304 : (⟨S_, .f32⟩ : BufTy).Contents (Elt F) → (⟨S1x1x4194304, .f32⟩ : BufTy).Contents (Elt F)),
    binary main_v36 main_v37 main_v38 (mulf : (⟨S1x1x4194304, .f32⟩ : BufTy).Contents (Elt F) → (⟨S1x1x4194304, .f32⟩ : BufTy).Contents (Elt F) → (⟨S1x1x4194304, .f32⟩ : BufTy).Contents (Elt F)),
    unary main_v35 main_v39 (broadcastInDim S1x1x4194304x1 ![0, 1, 2] bcast_S1x1x4194304_S1x1x4194304x1_0_1_2 : (⟨S1x1x4194304, .f32⟩ : BufTy).Contents (Elt F) → (⟨S1x1x4194304x1, .f32⟩ : BufTy).Contents (Elt F)),
    unary main_v38 main_v40 (broadcastInDim S1x1x4194304x1 ![0, 1, 2] bcast_S1x1x4194304_S1x1x4194304x1_0_1_2 : (⟨S1x1x4194304, .f32⟩ : BufTy).Contents (Elt F) → (⟨S1x1x4194304x1, .f32⟩ : BufTy).Contents (Elt F)),
    binary main_v39 main_v40 main_v41 ((fun a b => concatenate S1x1x4194304x2 3 [⟨S1x1x4194304x1, a⟩, ⟨S1x1x4194304x1, b⟩] concatenates_S1x1x4194304x1_S1x1x4194304x1_S1x1x4194304x2_d3) : (⟨S1x1x4194304x1, .f32⟩ : BufTy).Contents (Elt F) → (⟨S1x1x4194304x1, .f32⟩ : BufTy).Contents (Elt F) → (⟨S1x1x4194304x2, .f32⟩ : BufTy).Contents (Elt F)),
    reshape main_v41 main_v42 rfl shapeCasts_S1x1x4194304x2_S1x1x8388608,
    nullary main_c_7 (constantI S_ 32 0#32),
    unary main_c_7 main_v43 (broadcastInDim S1 ![] bcast_S_S1 : (⟨S_, .i32⟩ : BufTy).Contents (Elt F) → (⟨S1, .i32⟩ : BufTy).Contents (Elt F)),
    ternary main_v29 main_v43 main_v42 main_v44 ((fun x i u => Host.scatter scatter_S1x1x33554432_S1_S1x1x8388608_012_n_2_0 (fun _ b => b) x i u) : (⟨S1x1x33554432, .f32⟩ : BufTy).Contents (Elt F) → (⟨S1, .i32⟩ : BufTy).Contents (Elt F) → (⟨S1x1x8388608, .f32⟩ : BufTy).Contents (Elt F) → (⟨S1x1x33554432, .f32⟩ : BufTy).Contents (Elt F)) ]

/-- The fourth level's 18 operations, from main_v44 into main_v59. -/
abbrev chunk4 : List (HloOp τ sig (Elt F)) :=
  [ unary main_v44 main_v45 ((extractStridedSlice S1x1x16777216 ![0, 0, 0] · slices_S1x1x33554432_S1x1x16777216_0_0_0) : (⟨S1x1x33554432, .f32⟩ : BufTy).Contents (Elt F) → (⟨S1x1x16777216, .f32⟩ : BufTy).Contents (Elt F)),
    unary main_v45 main_v46 ((extractStridedSlice S1x1x8388608 ![0, 0, 0] · slices_S1x1x16777216_S1x1x8388608_0_0_0) : (⟨S1x1x16777216, .f32⟩ : BufTy).Contents (Elt F) → (⟨S1x1x8388608, .f32⟩ : BufTy).Contents (Elt F)),
    unary main_v45 main_v47 ((extractStridedSlice S1x1x8388608 ![0, 0, 8388608] · slices_S1x1x16777216_S1x1x8388608_0_0_8388608) : (⟨S1x1x16777216, .f32⟩ : BufTy).Contents (Elt F) → (⟨S1x1x8388608, .f32⟩ : BufTy).Contents (Elt F)),
    binary main_v46 main_v47 main_v48 (addf : (⟨S1x1x8388608, .f32⟩ : BufTy).Contents (Elt F) → (⟨S1x1x8388608, .f32⟩ : BufTy).Contents (Elt F) → (⟨S1x1x8388608, .f32⟩ : BufTy).Contents (Elt F)),
    nullary main_cst_8 (constant S_ .f32 0x3F3504F3#32),
    unary main_cst_8 main_v49 (broadcastInDim S1x1x8388608 ![] bcast_S_S1x1x8388608 : (⟨S_, .f32⟩ : BufTy).Contents (Elt F) → (⟨S1x1x8388608, .f32⟩ : BufTy).Contents (Elt F)),
    binary main_v48 main_v49 main_v50 (mulf : (⟨S1x1x8388608, .f32⟩ : BufTy).Contents (Elt F) → (⟨S1x1x8388608, .f32⟩ : BufTy).Contents (Elt F) → (⟨S1x1x8388608, .f32⟩ : BufTy).Contents (Elt F)),
    binary main_v46 main_v47 main_v51 (subf : (⟨S1x1x8388608, .f32⟩ : BufTy).Contents (Elt F) → (⟨S1x1x8388608, .f32⟩ : BufTy).Contents (Elt F) → (⟨S1x1x8388608, .f32⟩ : BufTy).Contents (Elt F)),
    nullary main_cst_9 (constant S_ .f32 0x3F3504F3#32),
    unary main_cst_9 main_v52 (broadcastInDim S1x1x8388608 ![] bcast_S_S1x1x8388608 : (⟨S_, .f32⟩ : BufTy).Contents (Elt F) → (⟨S1x1x8388608, .f32⟩ : BufTy).Contents (Elt F)),
    binary main_v51 main_v52 main_v53 (mulf : (⟨S1x1x8388608, .f32⟩ : BufTy).Contents (Elt F) → (⟨S1x1x8388608, .f32⟩ : BufTy).Contents (Elt F) → (⟨S1x1x8388608, .f32⟩ : BufTy).Contents (Elt F)),
    unary main_v50 main_v54 (broadcastInDim S1x1x8388608x1 ![0, 1, 2] bcast_S1x1x8388608_S1x1x8388608x1_0_1_2 : (⟨S1x1x8388608, .f32⟩ : BufTy).Contents (Elt F) → (⟨S1x1x8388608x1, .f32⟩ : BufTy).Contents (Elt F)),
    unary main_v53 main_v55 (broadcastInDim S1x1x8388608x1 ![0, 1, 2] bcast_S1x1x8388608_S1x1x8388608x1_0_1_2 : (⟨S1x1x8388608, .f32⟩ : BufTy).Contents (Elt F) → (⟨S1x1x8388608x1, .f32⟩ : BufTy).Contents (Elt F)),
    binary main_v54 main_v55 main_v56 ((fun a b => concatenate S1x1x8388608x2 3 [⟨S1x1x8388608x1, a⟩, ⟨S1x1x8388608x1, b⟩] concatenates_S1x1x8388608x1_S1x1x8388608x1_S1x1x8388608x2_d3) : (⟨S1x1x8388608x1, .f32⟩ : BufTy).Contents (Elt F) → (⟨S1x1x8388608x1, .f32⟩ : BufTy).Contents (Elt F) → (⟨S1x1x8388608x2, .f32⟩ : BufTy).Contents (Elt F)),
    reshape main_v56 main_v57 rfl shapeCasts_S1x1x8388608x2_S1x1x16777216,
    nullary main_c_10 (constantI S_ 32 0#32),
    unary main_c_10 main_v58 (broadcastInDim S1 ![] bcast_S_S1 : (⟨S_, .i32⟩ : BufTy).Contents (Elt F) → (⟨S1, .i32⟩ : BufTy).Contents (Elt F)),
    ternary main_v44 main_v58 main_v57 main_v59 ((fun x i u => Host.scatter scatter_S1x1x33554432_S1_S1x1x16777216_012_n_2_0 (fun _ b => b) x i u) : (⟨S1x1x33554432, .f32⟩ : BufTy).Contents (Elt F) → (⟨S1, .i32⟩ : BufTy).Contents (Elt F) → (⟨S1x1x16777216, .f32⟩ : BufTy).Contents (Elt F) → (⟨S1x1x33554432, .f32⟩ : BufTy).Contents (Elt F)) ]

/-- The last level's 15 operations, from main_v59 into the result main_v72. -/
abbrev chunk5 : List (HloOp τ sig (Elt F)) :=
  [ unary main_v59 main_v60 ((extractStridedSlice S1x1x16777216 ![0, 0, 0] · slices_S1x1x33554432_S1x1x16777216_0_0_0) : (⟨S1x1x33554432, .f32⟩ : BufTy).Contents (Elt F) → (⟨S1x1x16777216, .f32⟩ : BufTy).Contents (Elt F)),
    unary main_v59 main_v61 ((extractStridedSlice S1x1x16777216 ![0, 0, 16777216] · slices_S1x1x33554432_S1x1x16777216_0_0_16777216) : (⟨S1x1x33554432, .f32⟩ : BufTy).Contents (Elt F) → (⟨S1x1x16777216, .f32⟩ : BufTy).Contents (Elt F)),
    binary main_v60 main_v61 main_v62 (addf : (⟨S1x1x16777216, .f32⟩ : BufTy).Contents (Elt F) → (⟨S1x1x16777216, .f32⟩ : BufTy).Contents (Elt F) → (⟨S1x1x16777216, .f32⟩ : BufTy).Contents (Elt F)),
    nullary main_cst_11 (constant S_ .f32 0x3F3504F3#32),
    unary main_cst_11 main_v63 (broadcastInDim S1x1x16777216 ![] bcast_S_S1x1x16777216 : (⟨S_, .f32⟩ : BufTy).Contents (Elt F) → (⟨S1x1x16777216, .f32⟩ : BufTy).Contents (Elt F)),
    binary main_v62 main_v63 main_v64 (mulf : (⟨S1x1x16777216, .f32⟩ : BufTy).Contents (Elt F) → (⟨S1x1x16777216, .f32⟩ : BufTy).Contents (Elt F) → (⟨S1x1x16777216, .f32⟩ : BufTy).Contents (Elt F)),
    binary main_v60 main_v61 main_v65 (subf : (⟨S1x1x16777216, .f32⟩ : BufTy).Contents (Elt F) → (⟨S1x1x16777216, .f32⟩ : BufTy).Contents (Elt F) → (⟨S1x1x16777216, .f32⟩ : BufTy).Contents (Elt F)),
    nullary main_cst_12 (constant S_ .f32 0x3F3504F3#32),
    unary main_cst_12 main_v66 (broadcastInDim S1x1x16777216 ![] bcast_S_S1x1x16777216 : (⟨S_, .f32⟩ : BufTy).Contents (Elt F) → (⟨S1x1x16777216, .f32⟩ : BufTy).Contents (Elt F)),
    binary main_v65 main_v66 main_v67 (mulf : (⟨S1x1x16777216, .f32⟩ : BufTy).Contents (Elt F) → (⟨S1x1x16777216, .f32⟩ : BufTy).Contents (Elt F) → (⟨S1x1x16777216, .f32⟩ : BufTy).Contents (Elt F)),
    unary main_v64 main_v68 (broadcastInDim S1x1x16777216x1 ![0, 1, 2] bcast_S1x1x16777216_S1x1x16777216x1_0_1_2 : (⟨S1x1x16777216, .f32⟩ : BufTy).Contents (Elt F) → (⟨S1x1x16777216x1, .f32⟩ : BufTy).Contents (Elt F)),
    unary main_v67 main_v69 (broadcastInDim S1x1x16777216x1 ![0, 1, 2] bcast_S1x1x16777216_S1x1x16777216x1_0_1_2 : (⟨S1x1x16777216, .f32⟩ : BufTy).Contents (Elt F) → (⟨S1x1x16777216x1, .f32⟩ : BufTy).Contents (Elt F)),
    binary main_v68 main_v69 main_v70 ((fun a b => concatenate S1x1x16777216x2 3 [⟨S1x1x16777216x1, a⟩, ⟨S1x1x16777216x1, b⟩] concatenates_S1x1x16777216x1_S1x1x16777216x1_S1x1x16777216x2_d3) : (⟨S1x1x16777216x1, .f32⟩ : BufTy).Contents (Elt F) → (⟨S1x1x16777216x1, .f32⟩ : BufTy).Contents (Elt F) → (⟨S1x1x16777216x2, .f32⟩ : BufTy).Contents (Elt F)),
    reshape main_v70 main_v71 rfl shapeCasts_S1x1x16777216x2_S1x1x33554432,
    ternary main_v59 main_c main_v71 main_v72 ((fun x i u => Host.scatter scatter_S1x1x33554432_S0_S1x1x33554432_012_n_n_0 (fun _ b => b) x i u) : (⟨S1x1x33554432, .f32⟩ : BufTy).Contents (Elt F) → (⟨S0, .i32⟩ : BufTy).Contents (Elt F) → (⟨S1x1x33554432, .f32⟩ : BufTy).Contents (Elt F) → (⟨S1x1x33554432, .f32⟩ : BufTy).Contents (Elt F)) ]

/-- The operation list is the five stretches in a row. -/
theorem ops_eq : (ValueP.ops : List (HloOp τ sig (Elt F))) = chunk1 ++ chunk2 ++ chunk3 ++ chunk4 ++ chunk5 := rfl

/-- What all the operations leave is what the fifth stretch leaves, started from what the fourth leaves, and so on. -/
theorem after_ops (V0 : Valuation τ sig (Elt F)) :
    StableHlo.after (ValueP.ops : List (HloOp τ sig (Elt F))) V0
      = StableHlo.after chunk5 (StableHlo.after chunk4 (StableHlo.after chunk3 (StableHlo.after chunk2 (StableHlo.after chunk1 V0)))) := by
  rw [ops_eq, StableHlo.after_append, StableHlo.after_append, StableHlo.after_append, StableHlo.after_append]

end Stretches

set_option maxHeartbeats 4000000 in
/-- The first level, h = 1048576: from any contents W, main_v14 read by position is one level of W's argument. -/
theorem chunk1_rd3 (W : Valuation τ sig (Elt Ideal)) :
    rd3 (n := 33554432) (StableHlo.after chunk1 W (Proc.devRef .tc main_v14))
      = lvl 1048576 (rd3 (n := 33554432) (W (Proc.devRef .tc main_arg0))) := by
  after_results
  exact level_mid (L := 33554432) (h := 1048576) (n := 2097152) (by omega) (by omega)
    scatter_S1x1x33554432_S1_S1x1x2097152_012_n_2_0 rfl rfl
    slices_S1x1x33554432_S1x1x2097152_0_0_0 slices_S1x1x2097152_S1x1x1048576_0_0_0 slices_S1x1x2097152_S1x1x1048576_0_0_1048576
    bcast_S_S1x1x1048576 bcast_S1x1x1048576_S1x1x1048576x1_0_1_2
    concatenates_S1x1x1048576x1_S1x1x1048576x1_S1x1x1048576x2_d3 shapeCasts_S1x1x1048576x2_S1x1x2097152
    (broadcastInDim S1 ![] bcast_S_S1 (constantI S_ 32 0#32)) (fun _ => rfl) (W (Proc.devRef .tc main_arg0))

set_option maxHeartbeats 4000000 in
/-- The second level, h = 2097152: from any contents W, main_v29 read by position is one level of W's main_v14. -/
theorem chunk2_rd3 (W : Valuation τ sig (Elt Ideal)) :
    rd3 (n := 33554432) (StableHlo.after chunk2 W (Proc.devRef .tc main_v29))
      = lvl 2097152 (rd3 (n := 33554432) (W (Proc.devRef .tc main_v14))) := by
  after_results
  exact level_mid (L := 33554432) (h := 2097152) (n := 4194304) (by omega) (by omega)
    scatter_S1x1x33554432_S1_S1x1x4194304_012_n_2_0 rfl rfl
    slices_S1x1x33554432_S1x1x4194304_0_0_0 slices_S1x1x4194304_S1x1x2097152_0_0_0 slices_S1x1x4194304_S1x1x2097152_0_0_2097152
    bcast_S_S1x1x2097152 bcast_S1x1x2097152_S1x1x2097152x1_0_1_2
    concatenates_S1x1x2097152x1_S1x1x2097152x1_S1x1x2097152x2_d3 shapeCasts_S1x1x2097152x2_S1x1x4194304
    (broadcastInDim S1 ![] bcast_S_S1 (constantI S_ 32 0#32)) (fun _ => rfl) (W (Proc.devRef .tc main_v14))

set_option maxHeartbeats 4000000 in
/-- The third level, h = 4194304: from any contents W, main_v44 read by position is one level of W's main_v29. -/
theorem chunk3_rd3 (W : Valuation τ sig (Elt Ideal)) :
    rd3 (n := 33554432) (StableHlo.after chunk3 W (Proc.devRef .tc main_v44))
      = lvl 4194304 (rd3 (n := 33554432) (W (Proc.devRef .tc main_v29))) := by
  after_results
  exact level_mid (L := 33554432) (h := 4194304) (n := 8388608) (by omega) (by omega)
    scatter_S1x1x33554432_S1_S1x1x8388608_012_n_2_0 rfl rfl
    slices_S1x1x33554432_S1x1x8388608_0_0_0 slices_S1x1x8388608_S1x1x4194304_0_0_0 slices_S1x1x8388608_S1x1x4194304_0_0_4194304
    bcast_S_S1x1x4194304 bcast_S1x1x4194304_S1x1x4194304x1_0_1_2
    concatenates_S1x1x4194304x1_S1x1x4194304x1_S1x1x4194304x2_d3 shapeCasts_S1x1x4194304x2_S1x1x8388608
    (broadcastInDim S1 ![] bcast_S_S1 (constantI S_ 32 0#32)) (fun _ => rfl) (W (Proc.devRef .tc main_v29))

set_option maxHeartbeats 4000000 in
/-- The fourth level, h = 8388608: from any contents W, main_v59 read by position is one level of W's main_v44. -/
theorem chunk4_rd3 (W : Valuation τ sig (Elt Ideal)) :
    rd3 (n := 33554432) (StableHlo.after chunk4 W (Proc.devRef .tc main_v59))
      = lvl 8388608 (rd3 (n := 33554432) (W (Proc.devRef .tc main_v44))) := by
  after_results
  exact level_mid (L := 33554432) (h := 8388608) (n := 16777216) (by omega) (by omega)
    scatter_S1x1x33554432_S1_S1x1x16777216_012_n_2_0 rfl rfl
    slices_S1x1x33554432_S1x1x16777216_0_0_0 slices_S1x1x16777216_S1x1x8388608_0_0_0 slices_S1x1x16777216_S1x1x8388608_0_0_8388608
    bcast_S_S1x1x8388608 bcast_S1x1x8388608_S1x1x8388608x1_0_1_2
    concatenates_S1x1x8388608x1_S1x1x8388608x1_S1x1x8388608x2_d3 shapeCasts_S1x1x8388608x2_S1x1x16777216
    (broadcastInDim S1 ![] bcast_S_S1 (constantI S_ 32 0#32)) (fun _ => rfl) (W (Proc.devRef .tc main_v44))

set_option maxHeartbeats 4000000 in
/-- The last level, h = 16777216, half the signal: from any contents W, the result main_v72 read by position is one
    level of W's main_v59 (whatever W holds as the empty index array). -/
theorem chunk5_rd3 (W : Valuation τ sig (Elt Ideal)) :
    rd3 (n := 33554432) (StableHlo.after chunk5 W (Proc.devRef .tc main_v72))
      = lvl 16777216 (rd3 (n := 33554432) (W (Proc.devRef .tc main_v59))) := by
  after_results
  exact level_last (L := 33554432) (h := 16777216) (by omega)
    scatter_S1x1x33554432_S0_S1x1x33554432_012_n_n_0 rfl rfl rfl
    slices_S1x1x33554432_S1x1x16777216_0_0_0 slices_S1x1x33554432_S1x1x16777216_0_0_16777216
    bcast_S_S1x1x16777216 bcast_S1x1x16777216_S1x1x16777216x1_0_1_2
    concatenates_S1x1x16777216x1_S1x1x16777216x1_S1x1x16777216x2_d3 shapeCasts_S1x1x16777216x2_S1x1x33554432
    (W (Proc.devRef .tc main_c)) (W (Proc.devRef .tc main_v59))

/-- The program's result buffer after all its operations, read by position, is the five levels of its argument read by
    position. -/
theorem result_rd3 (V0 : Valuation τ sig (Elt Ideal)) :
    rd3 (n := 33554432) (StableHlo.after (ValueP.ops (F := Ideal)) V0 (Proc.devRef .tc main_v72))
      = Cert.Haar.all (rd3 (n := 33554432) (V0 (Proc.devRef .tc main_arg0))) := by
  rw [after_ops V0]
  exact (chunk5_rd3 _).trans (congrArg (lvl 16777216)
    ((chunk4_rd3 _).trans (congrArg (lvl 8388608)
      ((chunk3_rd3 _).trans (congrArg (lvl 4194304)
        ((chunk2_rd3 _).trans (congrArg (lvl 2097152) (chunk1_rd3 V0))))))))

end Cert.ReferenceIdeal.RefValue

end
-- ==== Proof.lean ====
/-
  An inverse Haar wavelet transform of five levels, computed by five butterfly kernel calls, against its jnp reference:
  both are the five levels of one function of the signal.

  One level at half-length `h` replaces the first `2 * h` entries of the signal `x` by the interleave of the scaled sums
  `(x k + x (k + h)) * sc` and the scaled differences `(x k - x (k + h)) * sc`, `k < h`, and keeps the later entries;
  `sc` is the single-precision word of `1 / sqrt 2`, the same word in both programs, read exactly. The levels run at
  `h = 1048576, 2097152, 4194304, 8388608, 16777216` on a signal of `33554432` floats (Proof/Haar.lean).

  The kernel program computes a level by one butterfly call and a stretch of host operations: the call reads the signal,
  laid out as rows of 128, through two windows of the ONE array — the first half's block `t` and the second half's
  block `t` — and writes the sums and the differences to two fresh arrays; the host stretch interleaves the two and
  appends the untouched tail. The reference slices the two halves, adds, subtracts, scales, stacks and writes the prefix
  back by a scatter. At the exact reading of floats the two agree entry by entry and no law of arithmetic is needed: the
  same sums, differences and products appear on both sides, only the layout differs, so the precondition is not used.

  The frames: each program terminates without fault and leaves its argument as launched — the kernel programs by the run
  of their eleven segments (Proof/K/, Proof/KI/: every butterfly call's region shares its input array between two
  windows, each holding half of the array's share), the reference by its host run with the result dropped.
-/
import proofs.«117748_j28784870817852_1_alg».proof.Defs
import proofs.«117748_j28784870817852_1_alg».proof.Proof.Gen.Kernel
import proofs.«117748_j28784870817852_1_alg».proof.Proof.Gen.KernelIdeal
import proofs.«117748_j28784870817852_1_alg».proof.Proof.Gen.ReferenceIdeal
import proofs.«117748_j28784870817852_1_alg».proof.Proof.Gen.Pre_finite_inputs
import proofs.«117748_j28784870817852_1_alg».proof.Proof.K.Kept
import proofs.«117748_j28784870817852_1_alg».proof.Proof.KI.Levels
import proofs.«117748_j28784870817852_1_alg».proof.Proof.RefRun
import proofs.«117748_j28784870817852_1_alg».proof.Proof.RefValue
import Idealize.ShloMosaic.Adequacy
import Idealize.ShloMosaic.Init

noncomputable section

namespace Cert.Proof

open Idealize.ShloMosaic Idealize.SL.Sem

/-- The kernel program as printed runs and leaves its argument as launched. -/
theorem frame_k : Cert.frame_Kernel := fun m ρ _ => Cert.Kernel.Butterfly.frame m ρ

/-- The idealized kernel program runs and leaves its argument as launched. -/
theorem frame_ki : Cert.frame_KernelIdeal := fun m ρ _ => Cert.KernelIdeal.Butterfly.frame m ρ

/-- The reference runs and leaves its argument as launched: its host run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the program's own text read exactly. -/
theorem preserves : Cert.preserves_Kernel_KernelIdeal := trivial

/-- From memories that agree on the signal both idealized programs end with the signal's five levels in their result
    buffers: the kernel's last contents read by position (Proof/KI/Levels.lean) and the reference's result term read by
    position (Proof/RefValue.lean) are the same function of the argument read by position, and two `[1, 1, n]` arrays
    that read alike are equal. -/
theorem algebraic : Cert.algebraic_KernelIdeal_ReferenceIdeal := by
  intro m ρ m' ρ' _ hagree
  refine ⟨fun c => Cert.KernelIdeal.Butterfly.W11 m c (Proc.devRef .tc Cert.KernelIdeal.main_v49), Cert.KernelIdeal.Butterfly.run_result m ρ, ?_⟩
  refine (θ_run Cert.ReferenceIdeal.defs _ _).mono (fun _ h c => ⟨(h c).1.trans ?_, (h c).2⟩)
    (Cert.ReferenceIdeal.ValueP.run (F := Ideal) m' ρ')
  refine Cert.Haar.ext3 ?_
  rw [Cert.KernelIdeal.Butterfly.result m c, ← hagree c]
  exact Cert.ReferenceIdeal.RefValue.result_rd3 (StableHlo.launchContents m' c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
